-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x250 : Shape := ⟨2, ![512, 250]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x250 : S_.BroadcastsInDim S512x250 (![] : Fin 0 → Fin S512x250.rank)
  reducesTo_S512x250_S_d0_1 : S512x250.ReducesTo [0, 1] S_

variable [Facts]

def fn {F : FTy → Type} [FloatOps F] (main_arg0 : FVec F S1024x512 .f32) (main_arg1 : FVec F S512x250 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x250 .f32 := Host.absf main_arg1
  let main_cst_0 : FVec F S_ .f32 := constant S_ .f32 0x7F800000#32
  let main_v5 : FVec F S512x250 .f32 := broadcastInDim S512x250 ![] bcast_S_S512x250 main_cst_0
  let main_v6 : IVec S512x250 1 := cmpf .olt main_v4 main_v5
  let main_c_1 : IVec S_ 1 := constantI S_ 1 1#1
  let main_v7 : IVec S_ 1 := (fun x v => Host.reduce IntOp.andi x v reducesTo_S512x250_S_d0_1 h_S_) main_v6 main_c_1
  let main_v8 : IVec S_ 1 := andi main_v3 main_v7
  main_v8
-- ==== Kernel.lean ====
abbrev S1024x512 : Shape := ⟨2, ![1024, 512]⟩
abbrev S512x250 : Shape := ⟨2, ![512, 250]⟩
abbrev S1024x250 : Shape := ⟨2, ![1024, 250]⟩
abbrev S256x512 : Shape := ⟨2, ![256, 512]⟩
abbrev S256x250 : Shape := ⟨2, ![256, 250]⟩
abbrev S1024x50x5 : Shape := ⟨3, ![1024, 50, 5]⟩
abbrev S1024x50 : Shape := ⟨2, ![1024, 50]⟩
abbrev S256x50x5 : Shape := ⟨3, ![256, 50, 5]⟩
abbrev S256x50 : Shape := ⟨2, ![256, 50]⟩
abbrev S256x50x256 : Shape := ⟨3, ![256, 50, 256]⟩
abbrev S256x50x1 : Shape := ⟨3, ![256, 50, 1]⟩
abbrev S50x256 : Shape := ⟨2, ![50, 256]⟩
abbrev S1x50x256 : Shape := ⟨3, ![1, 50, 256]⟩
abbrev S1024x562 : Shape := ⟨2, ![1024, 562]⟩

abbrev nBuf : Space → Nat
  | .hbm => 6
  | .vmem => 12
  | .smem => 0
  | _ => 0

abbrev bufTy : (tb : Table) → Fin (tcTables nBuf tb) → BufTy
  | .hbm, ⟨0, _⟩ => ⟨S1024x512, .f32⟩
  | .hbm, ⟨1, _⟩ => ⟨S512x250, .f32⟩
  | .hbm, ⟨2, _⟩ => ⟨S1024x250, .f32⟩
  | .hbm, ⟨3, _⟩ => ⟨S1024x50x5, .f32⟩
  | .hbm, ⟨4, _⟩ => ⟨S1024x50, .f32⟩
  | .hbm, ⟨5, _⟩ => ⟨S1024x562, .f32⟩
  | .local _ .vmem, ⟨0, _⟩ => ⟨S256x512, .f32⟩
  | .local _ .vmem, ⟨1, _⟩ => ⟨S256x512, .f32⟩
  | .local _ .vmem, ⟨2, _⟩ => ⟨S512x250, .f32⟩
  | .local _ .vmem, ⟨3, _⟩ => ⟨S256x250, .f32⟩
  | .local _ .vmem, ⟨4, _⟩ => ⟨S256x250, .f32⟩
  | .local _ .vmem, ⟨5, _⟩ => ⟨S256x50x5, .f32⟩
  | .local _ .vmem, ⟨6, _⟩ => ⟨S256x50x5, .f32⟩
  | .local _ .vmem, ⟨7, _⟩ => ⟨S256x50x5, .f32⟩
  | .local _ .vmem, ⟨8, _⟩ => ⟨S256x50x5, .f32⟩
  | .local _ .vmem, ⟨9, _⟩ => ⟨S256x50, .f32⟩
  | .local _ .vmem, ⟨10, _⟩ => ⟨S256x50, .f32⟩
  | .local _ .vmem, ⟨11, _⟩ => ⟨S256x50, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x250 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v73 : BitVec 1 := Scalar.cmpi .eq arg1 c3_i32
  let v74 : BitVec 32 := Scalar.extui v73
  let c0_i32_32 : BitVec 32 := 0#32
  let v75 : BitVec 1 := Scalar.cmpi .ne v74 c0_i32_32
  v75

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x50x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x50x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S256x512_S256x512_0_0 : ∀ a, (![0, 0] : Fin 2 → Nat) a + S256x512.size a ≤ S256x512.size a
  h_S256x512 : 0 < S256x512.numel
  inb_S512x250_S512x250_0_0 : ∀ a, (![0, 0] : Fin 2 → Nat) a + S512x250.size a ≤ S512x250.size a
  h_S512x250 : 0 < S512x250.numel
  inb_S256x250_S256x250_0_0 : ∀ a, (![0, 0] : Fin 2 → Nat) a + S256x250.size a ≤ S256x250.size a
  h_S256x250 : 0 < S256x250.numel
  shapeCasts_S1024x250_S1024x50x5 : S1024x250.ShapeCasts S1024x50x5
  inb_S256x50_S256x50_0_0 : ∀ a, (![0, 0] : Fin 2 → Nat) a + S256x50.size a ≤ S256x50.size a
  h_S256x50 : 0 < S256x50.numel
  shapeCasts_S256x50_S256x50 : S256x50.ShapeCasts S256x50
  inb_S256x50x5_S256x50x1_0_0_0 : ∀ a, (![0, 0, 0] : Fin 3 → Nat) a + S256x50x1.size a ≤ S256x50x5.size a
  h_S256x50x1 : 0 < S256x50x1.numel
  shapeCasts_S256x50x1_S256x50 : S256x50x1.ShapeCasts S256x50
  shapeCasts_S256x50_S256x50x1 : S256x50.ShapeCasts S256x50x1
  transposes_S256x50_p1_0_S50x256 : S256x50.Transposes [1, 0] S50x256
  shapeCasts_S50x256_S1x50x256 : S50x256.ShapeCasts S1x50x256
  broadcasts_S256x50x1_S256x50x256 : S256x50x1.Broadcasts S256x50x256
  broadcasts_S1x50x256_S256x50x256 : S1x50x256.Broadcasts S256x50x256
  inb_S256x50x5_S256x50x1_0_0_1 : ∀ a, (![0, 0, 1] : Fin 3 → Nat) a + S256x50x1.size a ≤ S256x50x5.size a
  inb_S256x50x5_S256x50x1_0_0_2 : ∀ a, (![0, 0, 2] : Fin 3 → Nat) a + S256x50x1.size a ≤ S256x50x5.size a
  inb_S256x50x5_S256x50x1_0_0_3 : ∀ a, (![0, 0, 3] : Fin 3 → Nat) a + S256x50x1.size a ≤ S256x50x5.size a
  inb_S256x50x5_S256x50x1_0_0_4 : ∀ a, (![0, 0, 4] : Fin 3 → Nat) a + S256x50x1.size a ≤ S256x50x5.size a
  reduces_S256x50x256_S256x50 : S256x50x256.Reduces [2] S256x50
  concatenates_S1024x512_S1024x50_S1024x562_d1 : Shape.Concatenates [S1024x512, S1024x50] S1024x562 1
  dot_S256x512_S512x250_S256x250_1_0_0_1_n_n_wf : DotDims.WF S256x512 S512x250 S256x250 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x250.size a ≤ S512x250.size a
  hwx0_1 : ∀ i : grid0.Coords, EltTy.bits .f32 = 32 ∨ (Rect.block (s := S512x250) S512x250.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x250.size a ≤ S1024x250.size a
  hwx0_2 : ∀ i : grid0.Coords, EltTy.bits .f32 = 32 ∨ (Rect.block (s := S1024x250) S256x250.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x50x5.size a ≤ S1024x50x5.size a
  hwx1_0 : ∀ i : grid1.Coords, EltTy.bits .f32 = 32 ∨ (Rect.block (s := S1024x50x5) S256x50x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x50x5.size a ≤ S1024x50x5.size a
  hwx1_1 : ∀ i : grid1.Coords, EltTy.bits .f32 = 32 ∨ (Rect.block (s := S1024x50x5) S256x50x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x50.size a ≤ S1024x50.size a
  hwx1_2 : ∀ i : grid1.Coords, EltTy.bits .f32 = 32 ∨ (Rect.block (s := S1024x50) S256x50.size (cc1_transform_2 i) (hinb1_2 i)).WholeWords (EltTy.packing .f32)

variable [Facts₀]

def dot_S256x512_S512x250_S256x250_1_0_0_1_n_n : DotDims S256x512 S512x250 S256x250 where
  lhsContracting := [1]
  rhsContracting := [0]
  lhsNonContracting := [0]
  rhsNonContracting := [1]
  lhsBatch := []
  rhsBatch := []
  wf := dot_S256x512_S512x250_S256x250_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x250.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x250.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x50x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x50x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x50.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1024x512 : Shape := ⟨2, ![1024, 512]⟩
abbrev S512x250 : Shape := ⟨2, ![512, 250]⟩
abbrev S1024x250 : Shape := ⟨2, ![1024, 250]⟩
abbrev S1024x50x5 : Shape := ⟨3, ![1024, 50, 5]⟩
abbrev S1024x50x5x1 : Shape := ⟨4, ![1024, 50, 5, 1]⟩
abbrev S50x5x1024 : Shape := ⟨3, ![50, 5, 1024]⟩
abbrev S1x50x5x1024 : Shape := ⟨4, ![1, 50, 5, 1024]⟩
abbrev S1024x50x5x1024 : Shape := ⟨4, ![1024, 50, 5, 1024]⟩
abbrev S_ : Shape := ⟨0, ![]⟩
abbrev S1024x50x1024 : Shape := ⟨3, ![1024, 50, 1024]⟩
abbrev S1024x50 : Shape := ⟨2, ![1024, 50]⟩
abbrev S1024x562 : Shape := ⟨2, ![1024, 562]⟩

abbrev nBuf : Space → Nat
  | .hbm => 18
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x250, .f32⟩
  | .hbm, ⟨2, _⟩ => ⟨S1024x250, .f32⟩
  | .hbm, ⟨3, _⟩ => ⟨S1024x50x5, .f32⟩
  | .hbm, ⟨4, _⟩ => ⟨S1024x50x5x1, .f32⟩
  | .hbm, ⟨5, _⟩ => ⟨S50x5x1024, .f32⟩
  | .hbm, ⟨6, _⟩ => ⟨S1x50x5x1024, .f32⟩
  | .hbm, ⟨7, _⟩ => ⟨S1024x50x5x1024, .f32⟩
  | .hbm, ⟨8, _⟩ => ⟨S1024x50x5x1024, .f32⟩
  | .hbm, ⟨9, _⟩ => ⟨S1024x50x5x1024, .f32⟩
  | .hbm, ⟨10, _⟩ => ⟨S1024x50x5x1024, .f32⟩
  | .hbm, ⟨11, _⟩ => ⟨S_, .f32⟩
  | .hbm, ⟨12, _⟩ => ⟨S1024x50x1024, .f32⟩
  | .hbm, ⟨13, _⟩ => ⟨S1024x50x1024, .f32⟩
  | .hbm, ⟨14, _⟩ => ⟨S1024x50x1024, .f32⟩
  | .hbm, ⟨15, _⟩ => ⟨S_, .f32⟩
  | .hbm, ⟨16, _⟩ => ⟨S1024x50, .f32⟩
  | .hbm, ⟨17, _⟩ => ⟨S1024x562, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S1024x250_S1024x50x5 : S1024x250.ShapeCasts S1024x50x5
  bcast_S1024x50x5_S1024x50x5x1_0_1_2 : S1024x50x5.BroadcastsInDim S1024x50x5x1 (![0, 1, 2] : Fin 3 → Fin S1024x50x5x1.rank)
  transposes_S1024x50x5_S50x5x1024_1_2_0 : S1024x50x5.Transposes [1, 2, 0] S50x5x1024
  bcast_S50x5x1024_S1x50x5x1024_1_2_3 : S50x5x1024.BroadcastsInDim S1x50x5x1024 (![1, 2, 3] : Fin 3 → Fin S1x50x5x1024.rank)
  bcast_S1024x50x5x1_S1024x50x5x1024_0_1_2_3 : S1024x50x5x1.BroadcastsInDim S1024x50x5x1024 (![0, 1, 2, 3] : Fin 4 → Fin S1024x50x5x1024.rank)
  bcast_S1x50x5x1024_S1024x50x5x1024_0_1_2_3 : S1x50x5x1024.BroadcastsInDim S1024x50x5x1024 (![0, 1, 2, 3] : Fin 4 → Fin S1024x50x5x1024.rank)
  reducesTo_S1024x50x5x1024_S1024x50x1024_d2 : S1024x50x5x1024.ReducesTo [2] S1024x50x1024
  h_S_ : 0 < S_.numel
  reducesTo_S1024x50x1024_S1024x50_d2 : S1024x50x1024.ReducesTo [2] S1024x50
  concatenates_S1024x512_S1024x50_S1024x562_d1 : Shape.Concatenates [S1024x512, S1024x50] S1024x562 1
  dot_S1024x512_S512x250_S1024x250_1_0_0_1_n_n_wf : DotDims.WF S1024x512 S512x250 S1024x250 [1] [0] [0] [1] [] []

variable [Facts₀]

def dot_S1024x512_S512x250_S1024x250_1_0_0_1_n_n : DotDims S1024x512 S512x250 S1024x250 where
  lhsContracting := [1]
  rhsContracting := [0]
  lhsNonContracting := [0]
  rhsNonContracting := [1]
  lhsBatch := []
  rhsBatch := []
  wf := dot_S1024x512_S512x250_S1024x250_1_0_0_1_n_n_wf

class Facts : Prop extends Facts₀ where

variable [Facts]
-- ==== Proof.Bits.R0.lean ====
/-
  The first kernel region (the row-block matrix product), at any float instance and at a PARAMETER `V`: the
  contents of the core's buffers when the region is entered.  Grid point `t` (of 4) reads the 256 x 512 block
  `t` of the left operand and the whole 512 x 250 right operand, and stores their product, accumulated into a
  zero matrix, over the whole 256 x 250 output block `t`.  Here: what each window's staging buffer holds after
  the body at a point, the body's triple, the proof data and the body obligation of the pipeline rule.
-/
import proofs.«105623_j74646531604915_1_alg».proof.Proof.Gen.Kernel.Launch
import proofs.«105623_j74646531604915_1_alg».proof.Proof.Gen.Kernel.Skeleton
import proofs.«105623_j74646531604915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is fetched once; its block index never moves, so its buffer holds the whole operand at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S256x512 := Rect.unit (s := S256x512) ![0, 0] S256x512.size inb_S256x512_S256x512_0_0
abbrev r0_1 : Rect S512x250 := Rect.unit (s := S512x250) ![0, 0] S512x250.size inb_S512x250_S512x250_0_0
abbrev r0_2 : Rect S256x250 := Rect.unit (s := S256x250) ![0, 0] S256x250.size inb_S256x250_S256x250_0_0

/-- The output block after the body: the product of the two loaded operands, stored over the whole buffer. -/
def out0_2 (x0 : Vec F S256x512 .f32) (x1 : Vec F S512x250 .f32) : Vec F S256x250 .f32 :=
  View.canon [⟨r0_2, k0_pay1 (View.ld x0 r0_0) (View.ld x1 r0_1)⟩]

/-- The one store covers the buffer. -/
theorem cover0_2 (p0 : Vec F S256x250 .f32) (y : S256x250.Idx) :
    ∃ pc ∈ ([⟨r0_2, p0⟩] : List (View.Piece (Elt F) S256x250 .f32)), y ∈ pc.1.set :=
  View.cover_of_tiled [⟨r0_2, p0⟩] S256x250.size (by rfl) y

/-! ## The body's triple -/

set_option maxHeartbeats 1000000 in
/-- On whole staging memrefs, the operands' at contents `x0`, `x1` and the output's at anything, the body runs to the
    continuation with the operands' as they were and the output's at `out0_2 x0 x1`. -/
theorem sound_kernel0 (c : Dev nD) (E : Set ℕ) (i : grid0.Coords) (arg1 : Memref sig .tc .vmem S256x512 .f32) (harg1 : arg1.IsWhole)
    (arg2 : Memref sig .tc .vmem S512x250 .f32) (harg2 : arg2.IsWhole) (arg3 : Memref sig .tc .vmem S256x250 .f32) (harg3 : arg3.IsWhole)
    (x0 : Vec F S256x512 .f32) (x1 : Vec F S512x250 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t`
    each operand's buffer at its block and the output's at the product of the two blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.R1Defs.lean ====
/-
  The second kernel region (pairwise L1 distances, exponentiated and summed), at any float instance and at a
  PARAMETER `V`: what its body computes at one grid point as a pure function, and what its scratch accumulator holds
  after each point.  The grid is 4 x 4, point `t` = (row tile `t / 4`, column tile `t % 4`).  At a point the body
  zeroes the 256 x 50 scratch if the column tile is the first, adds to it, for each of its entries (r, k), the sum
  over the 256 rows j of the column tile of exp(0 - sum over d < 5 of |mi[r,k,d] - mj[j,k,d]|), and copies the
  scratch into the output block if the column tile is the last.
-/
import proofs.«105623_j74646531604915_1_alg».proof.Proof.Gen.Kernel.Launch
import proofs.«105623_j74646531604915_1_alg».proof.Proof.Gen.Kernel.Skeleton
import proofs.«105623_j74646531604915_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's current staging buffer holds its block at every point (fetched when the row tile changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column tile's current staging buffer holds its block at every point (fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Slice `d` of a 256 x 50 x 5 tile: all rows, all kernels, the one coordinate `d`. -/
abbrev rd0 : Rect S256x50x5 := Rect.unit (s := S256x50x5) ![0, 0, 0] S256x50x1.size inb_S256x50x5_S256x50x1_0_0_0
abbrev rd1 : Rect S256x50x5 := Rect.unit (s := S256x50x5) ![0, 0, 1] S256x50x1.size inb_S256x50x5_S256x50x1_0_0_1
abbrev rd2 : Rect S256x50x5 := Rect.unit (s := S256x50x5) ![0, 0, 2] S256x50x1.size inb_S256x50x5_S256x50x1_0_0_2
abbrev rd3 : Rect S256x50x5 := Rect.unit (s := S256x50x5) ![0, 0, 3] S256x50x1.size inb_S256x50x5_S256x50x1_0_0_3
abbrev rd4 : Rect S256x50x5 := Rect.unit (s := S256x50x5) ![0, 0, 4] S256x50x1.size inb_S256x50x5_S256x50x1_0_0_4
/-- The whole 256 x 50 scratch (and output block). -/
abbrev rS : Rect S256x50 := Rect.unit (s := S256x50) ![0, 0] S256x50.size inb_S256x50_S256x50_0_0

/-! ## One grid point as a pure function -/

/-- The zero accumulator a first column tile starts from. -/
def zero1 : Vec F S256x50 .f32 := k1_pay1 (F := F)

/-- What the body stores into the scratch at a point, from the row tile `xi`, the column tile `xj` and the scratch's
    contents `s` when the accumulation reads it: `s` plus the column tile's 256 terms. -/
def step1 (xi xj : Vec F S256x50x5 .f32) (s : Vec F S256x50 .f32) : Vec F S256x50 .f32 :=
  k1_pay5 (k1_pay2 (View.ld xi rd0) (View.ld xj rd0) (View.ld xi rd1) (View.ld xj rd1)) (k1_pay3 (View.ld xj rd2)) (k1_pay4 (View.ld xi rd2))
    (View.ld xi rd3) (View.ld xj rd3) (View.ld xi rd4) (View.ld xj rd4) s

/-! ## The body's two conditions, decided over the grid -/

/-- "the column tile is the first" (the scratch is zeroed), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "the column tile is the last" (the scratch is copied out), as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the column tile is not the last the body stores nothing into the output block, -/
theorem idleAt1_2 : ∀ t : Fin cfg1.N, ¬cond1_1 (grid1.coords t) → cfg1.idle 2 (grid1.coords t) = true := by decide +kernel
/-- and the pipeline does not write the block back there; -/
theorem noFlush1_2 : ∀ t : Fin cfg1.N, ¬cond1_1 (grid1.coords t) → (cfg1.win 2).flush t = false := by decide +kernel
/-- at the last column tile it stores into it. -/
theorem liveAt1_2 : ∀ t : Fin cfg1.N, cond1_1 (grid1.coords t) → cfg1.idle 2 (grid1.coords t) = false := by decide +kernel

/-! ## The accumulator after each point -/

/-- What the scratch holds after the body at position `n`: one step from zero at a first column tile, else one step
    from what the point before left. -/
def accAt (c : Dev nD) : (n : ℕ) → n < cfg1.N → Vec F S256x50 .f32
  | 0, hn => step1 (iblk1 V c 0 ⟨0, hn⟩) (iblk1 V c 1 ⟨0, hn⟩) zero1
  | n + 1, hn =>
    if (n + 1) % 4 = 0 then step1 (iblk1 V c 0 ⟨n + 1, hn⟩) (iblk1 V c 1 ⟨n + 1, hn⟩) zero1
    else step1 (iblk1 V c 0 ⟨n + 1, hn⟩) (iblk1 V c 1 ⟨n + 1, hn⟩) (accAt c n (Nat.lt_of_succ_lt hn))

/-- At a first column tile: one step from zero. -/
theorem accAt_first (c : Dev nD) (t : Fin cfg1.N) (h0 : t.val % 4 = 0) :
    accAt V c t.val t.isLt = step1 (iblk1 V c 0 t) (iblk1 V c 1 t) zero1 := by
  obtain ⟨n, hn⟩ := t
  cases n with
  | zero => rfl
  | succ n => exact (if_pos h0)

/-- At a later column tile: one step from what the point before left. -/
theorem accAt_later (c : Dev nD) (t : Fin cfg1.N) (h0 : ¬t.val % 4 = 0) :
    accAt V c t.val t.isLt = step1 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (if_neg h0)

/-! ## The scratch and the staging memrefs, as the pipeline passes them -/

abbrev ms1_0 (t : Fin cfg1.N) : Memref sig .tc .vmem S256x50x5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x50x5 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x50 .f32 := win1_2.stage (cfg1.slots t 2)
abbrev hs1_2 (t : Fin cfg1.N) : (ms1_2 t).IsWhole := hstage1_2 ((cfg1.slots t 2).cast nbuf1_2)
/-- The scratch operand: a whole scoped buffer of the kernel's own. -/
abbrev scM1 : Memref sig .tc .vmem S256x50 .f32 := Memref.whole cc1_scratch0

end Cert.Kernel.Hand

end
-- ==== Proof.Bits.R1Dat.lean ====
/-
  The second kernel region's proof data: what the pipeline rule is told about each window's staging buffer after
  the body at each point, and the invariant between points — the scratch accumulator at what the point before left
  in it.  Both input windows read ONE array (the reshaped product): the row tile holds the left half of its share,
  the column tile the right half, the output array is held outright.
-/
import proofs.«105623_j74646531604915_1_alg».proof.Proof.Gen.Kernel.Launch
import proofs.«105623_j74646531604915_1_alg».proof.Proof.Gen.Kernel.Skeleton
import proofs.«105623_j74646531604915_1_alg».proof.Proof.Gen.Kernel.Points
import proofs.«105623_j74646531604915_1_alg».proof.Proof.Bits.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- The core's scoped buffers that are no staging buffer of this region — the first region's five staging buffers,
    each at some contents, and the scratch under the assertion `S` — and the generator register at some state. -/
def PhiWith (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ S) ∗ ∃ r, prngReg c r)

/-- The class invariant is that with the scratch at some contents. -/
theorem PhiA1_eq (c : Dev nD) :
    (Pipeline.ΦA spec1 c : sProp 𝕄) = PhiWith c (iprop(∃ d, owns (c : Thread nD τ) scM1 fullShare d)) := by
  unfold Pipeline.ΦA PhiWith; rw [scopedRest1_eq]; simp only [scM1, owns_whole]; rfl

/-- Before position `n`: at the first point the scratch holds anything; afterwards what the point before left. -/
def PhiS (c : Dev nD) : (n : ℕ) → n ≤ cfg1.N → sProp 𝕄
  | 0, _ => Pipeline.ΦA spec1 c
  | n + 1, hn => PhiWith c (owns (c : Thread nD τ) scM1 fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM1 fullShare (accAt V c n hn)) := rfl

theorem PhiS_pos (c : Dev nD) (n : ℕ) (h : n ≤ cfg1.N) (hz : n ≠ 0) :
    PhiS V c n h = PhiWith c (owns (c : Thread nD τ) scM1 fullShare (accAt V c (n - 1) (by omega))) := by
  cases n with
  | zero => exact absurd rfl hz
  | succ n => rfl

/-! ## The proof data -/

/-- The proof data of the region on core `c`: the arrays as the region finds them; after the body at point `t` each
    input tile's buffer at its block and the output's at the accumulator (consulted only at a last column tile, where
    the body copies the accumulator out); the invariant `PhiS`; nothing owed; the shared input array's share halved
    between its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The shares: the one input array's halves, the output outright. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

end Cert.Kernel.Hand

end
-- ==== Proof.Bits.R1Runs.lean ====
/-
  The second kernel's body run on whole memrefs, in each of the three cases its two conditions meet on the 4 x 4 grid:
  a first column tile (the scratch is zeroed, then accumulated into), a middle one (accumulated into), the last one
  (accumulated into, then copied into the output block).  In every case the scratch ends at `step1` of the two tiles
  and of what the accumulation found in it.
-/
import proofs.«105623_j74646531604915_1_alg».proof.Proof.Gen.Kernel.Launch
import proofs.«105623_j74646531604915_1_alg».proof.Proof.Gen.Kernel.Skeleton
import proofs.«105623_j74646531604915_1_alg».proof.Proof.Gen.Kernel.Points
import proofs.«105623_j74646531604915_1_alg».proof.Proof.Bits.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A whole buffer's rectangle at zero offsets -/

section WholeRect

variable {Val : EltTy → Type} {S : Shape} {e : EltTy}

/-- The rectangle of the shape's own sizes at zero offsets (however the zeros are written) is the whole shape: a load
    through it reads the contents as they are, -/
theorem ld_zero_off {off : Fin S.rank → ℕ} (h : off = fun _ => 0) (inb : ∀ a, off a + S.size a ≤ S.size a)
    (X : S.Idx → Val e) : View.ld X (Rect.unit off S.size inb) = X := by
  subst h
  funext x
  show X ((Rect.whole S).emb x) = X x
  rw [Rect.emb_whole_apply]

/-- every index lies in it, -/
theorem mem_zero_off {off : Fin S.rank → ℕ} (h : off = fun _ => 0) (inb : ∀ a, off a + S.size a ≤ S.size a)
    (y : S.Idx) : y ∈ (Rect.unit off S.size inb).set := by
  subst h
  show y ∈ (Rect.whole S).set
  rw [Rect.set_whole]
  exact Finset.mem_univ y

/-- and a store through it, the last of a list, leaves its payload at every index whatever the earlier stores were. -/
theorem canon_zero_off [∀ e, Nonempty (Val e)] {off : Fin S.rank → ℕ} (h : off = fun _ => 0)
    (inb : ∀ a, off a + S.size a ≤ S.size a) (w : S.Idx → Val e) (L : List (View.Piece Val S e)) :
    View.canon ((⟨Rect.unit off S.size inb, w⟩ : View.Piece Val S e) :: L) = w := by
  subst h
  funext y
  have hy := View.canon_cons_emb (Val := Val) (Rect.whole S) w L y
  rw [Rect.emb_whole_apply] at hy
  exact hy

end WholeRect

/-- The scratch's whole rectangle sits at zero offsets. -/
theorem zeros1_S : (![0, 0] : Fin S256x50.rank → ℕ) = fun _ => 0 := by
  funext a; fin_cases a <;> rfl

/-- A list of stores whose last is over the whole 256 x 50 buffer covers the buffer. -/
theorem cover1_S (p : Vec F S256x50 .f32) (L : List (View.Piece (Elt F) S256x50 .f32)) (y : S256x50.Idx) :
    ∃ pc ∈ ((⟨rS, p⟩ : View.Piece (Elt F) S256x50 .f32) :: L), y ∈ pc.1.set :=
  ⟨_, List.mem_cons_self, mem_zero_off (S := S256x50) zeros1_S inb_S256x50_S256x50_0_0 y⟩

/-- A load through the whole rectangle at zero offsets of what a list of stores left, the last of them through that
    rectangle, reads that store's payload. -/
theorem readCov_zero_off {Val : EltTy → Type} {S : Shape} {e : EltTy} [∀ e, Nonempty (Val e)] {sig : RefSig} {κ : Kind} {sp : Space}
    (v : View sig κ sp S e) {off : Fin S.rank → ℕ} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, mem_zero_off h inb y⟩), canon_zero_off h, ld_zero_off h]

set_option maxHeartbeats 1000000 in
/-- A first column tile that is not the last: the scratch, at anything, ends at one step from zero; the output block's
    buffer is handed back untouched. -/
theorem sound_kernel1_A (c : Dev nD) (E : Set ℕ) (i : grid1.Coords)
    (arg2 : Memref sig .tc .vmem S256x50x5 .f32) (harg2 : arg2.IsWhole) (arg3 : Memref sig .tc .vmem S256x50x5 .f32) (harg3 : arg3.IsWhole)
    (arg4 : Memref sig .tc .vmem S256x50 .f32) (harg4 : arg4.IsWhole) (arg5 : Memref sig .tc .vmem S256x50 .f32) (harg5 : arg5.IsWhole)
    (hc0 : cond1_0 i) (hc1 : ¬cond1_1 i)
    (xi xj : Vec F S256x50x5 .f32) (o : Vec F S256x50 .f32) (K : PUnit → sProp 𝕄) :
    iprop(owns (c : Thread nD τ) arg2 fullShare xi ∗ owns (c : Thread nD τ) arg3 fullShare xj ∗ owns (c : Thread nD τ) arg4 fullShare o
        ∗ (∃ d, owns (c : Thread nD τ) arg5 fullShare d)
        ∗ (iprop(owns (c : Thread nD τ) arg2 fullShare xi ∗ owns (c : Thread nD τ) arg3 fullShare xj ∗ owns (c : Thread nD τ) arg4 fullShare o
            ∗ owns (c : Thread nD τ) arg5 fullShare (step1 xi xj zero1)) -∗ K ⟨⟩))
      ⊢ wp frame (wpE (defs₀ (F := F)) Variants.none c none) E (cc1__l1_kernel i arg2 harg2 arg3 harg3 arg4 harg4 arg5 harg5) K := by
  simp only [cc1__l1_kernel_eq_skeleton]; unfold cc1__l1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover1_S _ _), canon_zero_off (S := S256x50) zeros1_S]
  rw [readCov_zero_off (S := S256x50) _ zeros1_S]
  unfold step1 zero1
  simp only [View.readAt_eq_ld, ld_zero_off (S := S256x50) zeros1_S]

set_option maxHeartbeats 1000000 in
/-- A middle column tile: the scratch goes from `s` to one step from `s`; the output block's buffer is handed back
    untouched. -/
theorem sound_kernel1_B (c : Dev nD) (E : Set ℕ) (i : grid1.Coords)
    (arg2 : Memref sig .tc .vmem S256x50x5 .f32) (harg2 : arg2.IsWhole) (arg3 : Memref sig .tc .vmem S256x50x5 .f32) (harg3 : arg3.IsWhole)
    (arg4 : Memref sig .tc .vmem S256x50 .f32) (harg4 : arg4.IsWhole) (arg5 : Memref sig .tc .vmem S256x50 .f32) (harg5 : arg5.IsWhole)
    (hc0 : ¬cond1_0 i) (hc1 : ¬cond1_1 i)
    (xi xj : Vec F S256x50x5 .f32) (o s : Vec F S256x50 .f32) (K : PUnit → sProp 𝕄) :
    iprop(owns (c : Thread nD τ) arg2 fullShare xi ∗ owns (c : Thread nD τ) arg3 fullShare xj ∗ owns (c : Thread nD τ) arg4 fullShare o
        ∗ owns (c : Thread nD τ) arg5 fullShare s
        ∗ (iprop(owns (c : Thread nD τ) arg2 fullShare xi ∗ owns (c : Thread nD τ) arg3 fullShare xj ∗ owns (c : Thread nD τ) arg4 fullShare o
            ∗ owns (c : Thread nD τ) arg5 fullShare (step1 xi xj s)) -∗ K ⟨⟩))
      ⊢ wp frame (wpE (defs₀ (F := F)) Variants.none c none) E (cc1__l1_kernel i arg2 harg2 arg3 harg3 arg4 harg4 arg5 harg5) K := by
  simp only [cc1__l1_kernel_eq_skeleton]; unfold cc1__l1_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover1_S _ _)]
  sl_unfold_words
  rw [canon_zero_off (S := S256x50) zeros1_S]
  unfold step1
  simp only [View.readAt_eq_ld, ld_zero_off (S := S256x50) zeros1_S]

set_option maxHeartbeats 1000000 in
/-- The last column tile: the scratch goes from `s` to one step from `s`, and the output block's buffer, at anything,
    ends at the same. -/
theorem sound_kernel1_C (c : Dev nD) (E : Set ℕ) (i : grid1.Coords)
    (arg2 : Memref sig .tc .vmem S256x50x5 .f32) (harg2 : arg2.IsWhole) (arg3 : Memref sig .tc .vmem S256x50x5 .f32) (harg3 : arg3.IsWhole)
    (arg4 : Memref sig .tc .vmem S256x50 .f32) (harg4 : arg4.IsWhole) (arg5 : Memref sig .tc .vmem S256x50 .f32) (harg5 : arg5.IsWhole)
    (hc0 : ¬cond1_0 i) (hc1 : cond1_1 i)
    (xi xj : Vec F S256x50x5 .f32) (s : Vec F S256x50 .f32) (K : PUnit → sProp 𝕄) :
    iprop(owns (c : Thread nD τ) arg2 fullShare xi ∗ owns (c : Thread nD τ) arg3 fullShare xj ∗ (∃ d, owns (c : Thread nD τ) arg4 fullShare d)
        ∗ owns (c : Thread nD τ) arg5 fullShare s
        ∗ (iprop(owns (c : Thread nD τ) arg2 fullShare xi ∗ owns (c : Thread nD τ) arg3 fullShare xj ∗ owns (c : Thread nD τ) arg4 fullShare (step1 xi xj s)
            ∗ owns (c : Thread nD τ) arg5 fullShare (step1 xi xj s)) -∗ K ⟨⟩))
      ⊢ wp frame (wpE (defs₀ (F := F)) Variants.none c none) E (cc1__l1_kernel i arg2 harg2 arg3 harg3 arg4 harg4 arg5 harg5) K := by
  simp only [cc1__l1_kernel_eq_skeleton]; unfold cc1__l1_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover1_S _ _)]
    sl_unfold_words
    rw [canon_zero_off (S := S256x50) zeros1_S, readCov_zero_off (S := S256x50) _ zeros1_S]
    unfold step1
    simp only [View.readAt_eq_ld, ld_zero_off (S := S256x50) zeros1_S]
  iexists _; isplitr
  swap; · iexact H3
  ipureintro
  sl_unfold_words
  rw [View.read_writes_eq_canon _ _ _ (cover1_S _ _), canon_zero_off (S := S256x50) zeros1_S]
  unfold step1
  simp only [View.readAt_eq_ld, ld_zero_off (S := S256x50) zeros1_S]

end Cert.Kernel.Hand

end
-- ==== Proof.Bits.R1.lean ====
/-
  The second kernel region's body obligation: at every grid point, from the invariant (the scratch at what the point
  before left, or at anything before the first point) and the three windows' current staging buffers at what the
  pipeline put there, the body runs to the invariant at this point's accumulator, the two input tiles' buffers as they
  were, and the output block's buffer at the accumulator where the column tile is the last — untouched elsewhere.
-/
import proofs.«105623_j74646531604915_1_alg».proof.Proof.Gen.Kernel.Launch
import proofs.«105623_j74646531604915_1_alg».proof.Proof.Gen.Kernel.Skeleton
import proofs.«105623_j74646531604915_1_alg».proof.Proof.Gen.Kernel.Points
import proofs.«105623_j74646531604915_1_alg».proof.Proof.Bits.R1Dat
import proofs.«105623_j74646531604915_1_alg».proof.Proof.Bits.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the column tile's position: first, middle or last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [accAt_first V c t h0]
      by_cases hz : t.val = 0
      · rw [PhiS_castSucc V c t, PhiS_zero V c _ _ hz, PhiA1_eq]; unfold PhiWith
        iintro ⟨⟨⟨Ha, Hb, Hc, Hd, He, HS⟩, Hg⟩, Ho, ⟨%d0, H0⟩, ⟨%d1, H1⟩, ⟨%d2, H2⟩⟩
        iapply (sound_kernel1_A c Set.univ (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexact HS
        iintro ⟨H0, H1, H2, HS⟩
        isplitl [Ha Hb Hc Hd He HS Hg]
        · isplitr [Hg]
          · isplitl [Ha]; · iexact Ha
            isplitl [Hb]; · iexact Hb
            isplitl [Hc]; · iexact Hc
            isplitl [Hd]; · iexact Hd
            isplitl [He]; · iexact He
            iexact HS
          iexact Hg
        isplitl [Ho]; · iexact Ho
        isplitl [H0]; · iexact H0
        isplitl [H1]; · iexact H1
        iexists _; iexact H2
      · rw [PhiS_castSucc V c t, PhiS_pos V c _ _ hz]; unfold PhiWith
        iintro ⟨⟨⟨Ha, Hb, Hc, Hd, He, HS⟩, Hg⟩, Ho, ⟨%d0, H0⟩, ⟨%d1, H1⟩, ⟨%d2, H2⟩⟩
        iapply (sound_kernel1_A c Set.univ (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexists _; iexact HS
        iintro ⟨H0, H1, H2, HS⟩
        isplitl [Ha Hb Hc Hd He HS Hg]
        · isplitr [Hg]
          · isplitl [Ha]; · iexact Ha
            isplitl [Hb]; · iexact Hb
            isplitl [Hc]; · iexact Hc
            isplitl [Hd]; · iexact Hd
            isplitl [He]; · iexact He
            iexact HS
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [accAt_later V c t h0]
      have hz : t.val ≠ 0 := fun hz => h0 (by rw [hz])
      rw [PhiS_castSucc V c t, PhiS_pos V c _ _ hz]; unfold PhiWith
      iintro ⟨⟨⟨Ha, Hb, Hc, Hd, He, HS⟩, Hg⟩, Ho, ⟨%d0, H0⟩, ⟨%d1, H1⟩, ⟨%d2, H2⟩⟩
      iapply (sound_kernel1_C c Set.univ (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [accAt_later V c t h0]
      have hz : t.val ≠ 0 := fun hz => h0 (by rw [hz])
      rw [PhiS_castSucc V c t, PhiS_pos V c _ _ hz]; unfold PhiWith
      iintro ⟨⟨⟨Ha, Hb, Hc, Hd, He, HS⟩, Hg⟩, Ho, ⟨%d0, H0⟩, ⟨%d1, H1⟩, ⟨%d2, H2⟩⟩
      iapply (sound_kernel1_B c Set.univ (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class invariant back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold PhiWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.Kernel.Hand

end
-- ==== Proof.Bits.R1Arrays.lean ====
/-
  The second region's arrays among the core's unscoped buffers.  Two of its three windows read ONE buffer (the
  reshaped product): at the region's entry that buffer's full share is split in two, one half to each window, and at
  the exit the halves — both still at the entry contents, the windows being inputs — are joined again; the output
  window's buffer is held outright and leaves at what the write-backs made of it.
-/
import proofs.«105623_j74646531604915_1_alg».proof.Proof.Gen.Kernel.Launch
import proofs.«105623_j74646531604915_1_alg».proof.Proof.Gen.Kernel.Skeleton
import proofs.«105623_j74646531604915_1_alg».proof.Proof.Gen.Kernel.Points
import proofs.«105623_j74646531604915_1_alg».proof.Proof.Bits.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two distinct buffers behind the three windows' arrays. -/
theorem image1 : Finset.image (Pipeline.arrRef (cfgs 1).spec) Finset.univ = {main_v1, main_v2} := by decide

/-- ENTRY: the unscoped buffers at `V c` are the region's arrays at the proof data's entry contents and the unscoped rest. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  unfold Pipeline.arrBufs Dat.arrays
  rw [bigSep_W1, image1, BI.bigSep_insert (by decide), BI.bigSep_singleton]
  rw [share1_0 V c, share1_1 V c, share1_2 V c, (arr_whole1 0).set_eq_univ, (arr_whole1 2).set_eq_univ]
  show iprop(((((c : Thread nD τ).loc main_v1) ↦{fullShare} V c main_v1) ∗ (((c : Thread nD τ).loc main_v2) ↦{fullShare} V c main_v2))
      ∗ Pipeline.unscopedRest (Ix := Unit) (Name := ℕ) (U := UR sig nD τ) (Lvl := ℕ) spec1 c (V c)) ⊢ _
  iintro ⟨⟨H1, H2⟩, Hrest⟩
  ihave H1' := (pointsTo_share (PosShare.mem_left_op_right fullShare)).1 $$ H1
  icases H1' with ⟨H1a, H1b⟩
  isplitr [Hrest]
  · isplitl [H1a]; · iexact H1a
    isplitl [H1b]; · iexact H1b
    iexact H2
  iexact Hrest

/-- EXIT: the arrays at their final contents and the unscoped rest are the unscoped buffers at any valuation `V'` that has
    the output array at what the region left and agrees with `V c` elsewhere. -/
theorem exit1 (c : Dev nD) (V' : (b : Ref sig .tc) → Buf (Elt F) ((c : Thread nD τ).loc b))
    (h2 : V' main_v2 = (dat1 V c).arrAt 2 cfg1.N) (hrest : ∀ b, b ≠ main_v2 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  have e0 : (dat1 V c).arrAt 0 cfg1.N = V' main_v1 :=
    ((dat1 V c).arrAt_in 0 rfl _).trans ((A_eq1 V c 0).trans (hrest main_v1 (by decide)).symm)
  have e1 : (dat1 V c).arrAt 1 cfg1.N = V' main_v1 :=
    ((dat1 V c).arrAt_in 1 rfl _).trans ((A_eq1 V c 1).trans (hrest main_v1 (by decide)).symm)
  have erest : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by
      rw [hrest b (fun e => (Finset.mem_sdiff.mp hb).2 (e ▸ (by decide : main_v2 ∈ Finset.univ.image (Pipeline.arrRef spec1))))]
  rw [Pipeline.unscopedBufs_split₀ cfgs 1 winFacts₀1.arr_unscoped c V']
  unfold Pipeline.arrBufs Dat.arrays
  rw [bigSep_W1, image1, BI.bigSep_insert (by decide), BI.bigSep_singleton]
  rw [share1_0 V c, share1_1 V c, share1_2 V c, (arr_whole1 0).set_eq_univ, (arr_whole1 2).set_eq_univ, erest]
  show iprop(((((c : Thread nD τ).loc main_v1) ↦{fullShare.left} (dat1 V c).arrAt 0 cfg1.N)
        ∗ (((c : Thread nD τ).loc main_v1) ↦{fullShare.right} (dat1 V c).arrAt 1 cfg1.N)
        ∗ (((c : Thread nD τ).loc main_v2) ↦{fullShare} (dat1 V c).arrAt 2 cfg1.N))
      ∗ Pipeline.unscopedRest (Ix := Unit) (Name := ℕ) (U := UR sig nD τ) (Lvl := ℕ) spec1 c V')
    ⊢ iprop(((((c : Thread nD τ).loc main_v1) ↦{fullShare} V' main_v1) ∗ (((c : Thread nD τ).loc main_v2) ↦{fullShare} V' main_v2))
      ∗ Pipeline.unscopedRest (Ix := Unit) (Name := ℕ) (U := UR sig nD τ) (Lvl := ℕ) spec1 c V')
  rw [e0, e1, h2]
  iintro ⟨⟨H1a, H1b, H2⟩, Hrest⟩
  isplitr [Hrest]
  · isplitl [H1a H1b]
    · iapply (pointsTo_share (PosShare.mem_left_op_right fullShare)).2
      isplitl [H1a]; · iexact H1a
      iexact H1b
    iexact H2
  iexact Hrest

end Cert.Kernel.Hand

end
-- ==== Proof.Bits.Run.lean ====
/-
  THE RUN of @main: kernel region 0 (the row-blocked product), the host reshape, kernel region 1 (the pairwise
  feature), the host concatenation — as four segments over one thread state per core: every unscoped buffer at the
  boundary's contents, the generator register at some state, nothing owed.  The buffer contents at each boundary are a
  fold from the launch memory: a region's arrays at what its write-backs leave, a host stretch's results at its
  operations' values.  Every weakly fair execution terminates and the final memory holds every unscoped buffer at the
  last boundary's contents; the frame and the value of the result are read off that.
-/
import proofs.«105623_j74646531604915_1_alg».proof.Proof.Gen.Kernel.Launch
import proofs.«105623_j74646531604915_1_alg».proof.Proof.Gen.Kernel.Skeleton
import proofs.«105623_j74646531604915_1_alg».proof.Proof.Gen.Kernel.Points
import proofs.«105623_j74646531604915_1_alg».proof.Proof.Bits.R0
import proofs.«105623_j74646531604915_1_alg».proof.Proof.Bits.R1
import proofs.«105623_j74646531604915_1_alg».proof.Proof.Bits.R1Arrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the reshape (region 1's entry). -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- At region 1's exit: its output array at what the pipeline leaves, every other buffer as entered. -/
def W3 (c : Dev nD) : Valuation τ sig (Elt F) :=
  Function.update (W2 m ρ c) (Proc.devRef .tc main_v2) ((dat1 (V2r m ρ) c).arrAt 2 cfg1.N)
abbrev V3r : (c : Dev nD) → (b : Ref sig .tc) → Buf (Elt F) ((c : Thread nD τ).loc b) := fun c b => W3 m ρ c b
theorem W3_main_v2 (c : Dev nD) : V3r m ρ c main_v2 = (dat1 (V2r m ρ) c).arrAt 2 cfg1.N := by
  unfold V3r W3; exact Function.update_self _ _ _
theorem W3_of_ne (c : Dev nD) (b : Ref sig .tc) (hb : b ≠ main_v2) : V3r m ρ c b = V2r m ρ c b := by
  unfold V3r V2r W3; exact Function.update_of_ne (StableHlo.devRef_ne_of_ne hb) _ _
/-- After the concatenation (the return). -/
abbrev W4 : Dev nD → Valuation τ sig (Elt F) := fun c => StableHlo.after hostOps2 (W3 m ρ c)

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V0r m ρ) c
  | ⟨1, _⟩ => fun c => dat1 (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W0`, left at `W1`. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. The one input array's
    share is split between the two windows at the entry and joined at the exit; the scratch rides in the invariant. -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := entry1 (V2r m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2r m ρ) c)
    unfold Pipeline.ΦA
    iintro ⟨Hp, -, Hr⟩
    isplitl [Hr]; · iexact Hr
    iexact Hp
  hout c := by
    rw [Pipeline.ownSems0_none]
    refine BIBase.Entails.trans (hout1 (V2r m ρ) c) ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · (Pipeline.pin (pcfgs (F := F)) admH 1).N)
          ∗ Pipeline.unscopedRest (Ix := Unit) (Name := ℕ) (U := UR sig nD τ) (Lvl := ℕ) spec1 c (V2r m ρ c))
        ⊢ (unscopedBufs c (V3r m ρ c) : sProp 𝕄) :=
      exit1 (V2r m ρ) c (V3r m ρ c) (W3_main_v2 m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Hand

end
-- ==== Proof.Bits.RunValue.lean ====
/-
  What the last boundary's contents are, buffer by buffer: the two arguments are the launch contents (no region and
  no host operation writes them); the array the second region reads is the reshape of what the first region left;
  the result is the concatenation of the first argument and what the second region left.  From these and the run:
  the frame (the arguments end unchanged) and the run with the result named.
-/
import proofs.«105623_j74646531604915_1_alg».proof.Proof.Gen.Kernel.Launch
import proofs.«105623_j74646531604915_1_alg».proof.Proof.Gen.Kernel.Skeleton
import proofs.«105623_j74646531604915_1_alg».proof.Proof.Gen.Kernel.Points
import proofs.«105623_j74646531604915_1_alg».proof.Proof.Bits.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 is entered at the launch contents. -/
theorem V0r_main_arg0 (c : Dev nD) : V0r m ρ c main_arg0 = m ((c : Thread nD τ).loc main_arg0) := rfl
theorem V0r_main_arg1 (c : Dev nD) : V0r m ρ c main_arg1 = m ((c : Thread nD τ).loc main_arg1) := rfl

/-- Region 1 reads the reshape of the product region 0 left. -/
theorem V2r_main_v1 (c : Dev nD) :
    V2r m ρ c main_v1 = shapeCast S1024x50x5 ((dat0 (V0r m ρ) c).arrAt 2 cfg0.N) shapeCasts_S1024x250_S1024x50x5 := by
  -- the one host operation of the stretch writes main_v1: the reshape of main_v0, which is region 0's output array
  show StableHlo.after hostOps1 (W1 m ρ c) (Proc.devRef .tc main_v1) = _
  after_results
  have h : W1 m ρ c (Proc.devRef .tc main_v0) = (dat0 (V0r m ρ) c).arrAt 2 cfg0.N := W1_arr m ρ c 2
  rw [h]
  rfl

/-- At region 1's exit an argument is still the launch contents: region 1 writes only its output array, the reshape
    writes only its result, and region 0 reads the argument through an input window, whose array stays as entered. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
        simp only [hostOps1, List.Forall, StableHlo.reshape_writes, Finset.mem_singleton]
        exact StableHlo.devRef_ne_of_ne (by decide)))
    _ = W0 m ρ c (Proc.devRef .tc main_arg0) := (W1_arr m ρ c 0).trans (((dat0 (V0r m ρ) c).arrAt_in 0 rfl _).trans (A_eq0 (V0r m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
        simp only [hostOps1, List.Forall, StableHlo.reshape_writes, Finset.mem_singleton]
        exact StableHlo.devRef_ne_of_ne (by decide)))
    _ = W0 m ρ c (Proc.devRef .tc main_arg1) := (W1_arr m ρ c 1).trans (((dat0 (V0r m ρ) c).arrAt_in 1 rfl _).trans (A_eq0 (V0r m ρ) c 1))
    _ = m ((c : Thread nD τ).loc main_arg1) := rfl

/-- The arguments reach the end as launched. -/
theorem W4_main_arg0 (c : Dev nD) : W4 m ρ c (Proc.devRef .tc main_arg0) = m ((c : Thread nD τ).loc main_arg0) := by
  -- the concatenation writes only the result buffer
  calc W4 m ρ c (Proc.devRef .tc main_arg0)
    _ = W3 m ρ c (Proc.devRef .tc main_arg0) := StableHlo.after_of_forall_not_mem (b := Proc.devRef .tc main_arg0) _ _ (List.forall_iff_forall_mem.mp (by
        simp only [hostOps2, List.Forall, StableHlo.binary_writes, Finset.mem_singleton]
        exact StableHlo.devRef_ne_of_ne (by decide)))
    _ = m ((c : Thread nD τ).loc main_arg0) := W3_main_arg0 m ρ c
theorem W4_main_arg1 (c : Dev nD) : W4 m ρ c (Proc.devRef .tc main_arg1) = m ((c : Thread nD τ).loc main_arg1) := by
  -- the concatenation writes only the result buffer
  calc W4 m ρ c (Proc.devRef .tc main_arg1)
    _ = W3 m ρ c (Proc.devRef .tc main_arg1) := StableHlo.after_of_forall_not_mem (b := Proc.devRef .tc main_arg1) _ _ (List.forall_iff_forall_mem.mp (by
        simp only [hostOps2, List.Forall, StableHlo.binary_writes, Finset.mem_singleton]
        exact StableHlo.devRef_ne_of_ne (by decide)))
    _ = m ((c : Thread nD τ).loc main_arg1) := W3_main_arg1 m ρ c

/-- The result: the first argument beside what region 1 left, joined along the columns. -/
theorem W4_main_v3 (c : Dev nD) :
    W4 m ρ c (Proc.devRef .tc main_v3)
      = concatenate S1024x562 1 [⟨S1024x512, m ((c : Thread nD τ).loc main_arg0)⟩, ⟨S1024x50, (dat1 (V2r m ρ) c).arrAt 2 cfg1.N⟩]
          concatenates_S1024x512_S1024x50_S1024x562_d1 := by
  -- the concatenation's value at its two operands: the first argument, still as launched, and region 1's output array
  show StableHlo.after hostOps2 (W3 m ρ c) (Proc.devRef .tc main_v3) = _
  after_results
  have h2 : W3 m ρ c (Proc.devRef .tc main_v2) = (dat1 (V2r m ρ) c).arrAt 2 cfg1.N := W3_main_v2 m ρ c
  rw [h2, W3_main_arg0 m ρ c]

/-- THE FRAME, at any float instance: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

/-- The run with the result named: the result buffer ends at the last boundary's contents, the arguments unchanged. -/
theorem run_value : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v3 (by decide)),
     (h c _ (mem_uc main_arg0 (by decide))).trans (W4_main_arg0 m ρ c),
     (h c _ (mem_uc main_arg1 (by decide))).trans (W4_main_arg1 m ρ c)⟩) (run_all m ρ)

end Cert.Kernel.Hand

end
-- ==== Proof.R0.lean ====
/-
  The first kernel region (the row-block matrix product), at any float instance and at a PARAMETER `V`: the
  contents of the core's buffers when the region is entered.  Grid point `t` (of 4) reads the 256 x 512 block
  `t` of the left operand and the whole 512 x 250 right operand, and stores their product, accumulated into a
  zero matrix, over the whole 256 x 250 output block `t`.  Here: what each window's staging buffer holds after
  the body at a point, the body's triple, the proof data and the body obligation of the pipeline rule.
-/
import proofs.«105623_j74646531604915_1_alg».proof.Proof.Gen.KernelIdeal.Launch
import proofs.«105623_j74646531604915_1_alg».proof.Proof.Gen.KernelIdeal.Skeleton
import proofs.«105623_j74646531604915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is fetched once; its block index never moves, so its buffer holds the whole operand at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S256x512 := Rect.unit (s := S256x512) ![0, 0] S256x512.size inb_S256x512_S256x512_0_0
abbrev r0_1 : Rect S512x250 := Rect.unit (s := S512x250) ![0, 0] S512x250.size inb_S512x250_S512x250_0_0
abbrev r0_2 : Rect S256x250 := Rect.unit (s := S256x250) ![0, 0] S256x250.size inb_S256x250_S256x250_0_0

/-- The output block after the body: the product of the two loaded operands, stored over the whole buffer. -/
def out0_2 (x0 : Vec F S256x512 .f32) (x1 : Vec F S512x250 .f32) : Vec F S256x250 .f32 :=
  View.canon [⟨r0_2, k0_pay1 (View.ld x0 r0_0) (View.ld x1 r0_1)⟩]

/-- The one store covers the buffer. -/
theorem cover0_2 (p0 : Vec F S256x250 .f32) (y : S256x250.Idx) :
    ∃ pc ∈ ([⟨r0_2, p0⟩] : List (View.Piece (Elt F) S256x250 .f32)), y ∈ pc.1.set :=
  View.cover_of_tiled [⟨r0_2, p0⟩] S256x250.size (by rfl) y

/-! ## The body's triple -/

set_option maxHeartbeats 1000000 in
/-- On whole staging memrefs, the operands' at contents `x0`, `x1` and the output's at anything, the body runs to the
    continuation with the operands' as they were and the output's at `out0_2 x0 x1`. -/
theorem sound_kernel0 (c : Dev nD) (E : Set ℕ) (i : grid0.Coords) (arg1 : Memref sig .tc .vmem S256x512 .f32) (harg1 : arg1.IsWhole)
    (arg2 : Memref sig .tc .vmem S512x250 .f32) (harg2 : arg2.IsWhole) (arg3 : Memref sig .tc .vmem S256x250 .f32) (harg3 : arg3.IsWhole)
    (x0 : Vec F S256x512 .f32) (x1 : Vec F S512x250 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t`
    each operand's buffer at its block and the output's at the product of the two blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Defs.lean ====
/-
  The second kernel region (pairwise L1 distances, exponentiated and summed), at any float instance and at a
  PARAMETER `V`: what its body computes at one grid point as a pure function, and what its scratch accumulator holds
  after each point.  The grid is 4 x 4, point `t` = (row tile `t / 4`, column tile `t % 4`).  At a point the body
  zeroes the 256 x 50 scratch if the column tile is the first, adds to it, for each of its entries (r, k), the sum
  over the 256 rows j of the column tile of exp(0 - sum over d < 5 of |mi[r,k,d] - mj[j,k,d]|), and copies the
  scratch into the output block if the column tile is the last.
-/
import proofs.«105623_j74646531604915_1_alg».proof.Proof.Gen.KernelIdeal.Launch
import proofs.«105623_j74646531604915_1_alg».proof.Proof.Gen.KernelIdeal.Skeleton
import proofs.«105623_j74646531604915_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's current staging buffer holds its block at every point (fetched when the row tile changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column tile's current staging buffer holds its block at every point (fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Slice `d` of a 256 x 50 x 5 tile: all rows, all kernels, the one coordinate `d`. -/
abbrev rd0 : Rect S256x50x5 := Rect.unit (s := S256x50x5) ![0, 0, 0] S256x50x1.size inb_S256x50x5_S256x50x1_0_0_0
abbrev rd1 : Rect S256x50x5 := Rect.unit (s := S256x50x5) ![0, 0, 1] S256x50x1.size inb_S256x50x5_S256x50x1_0_0_1
abbrev rd2 : Rect S256x50x5 := Rect.unit (s := S256x50x5) ![0, 0, 2] S256x50x1.size inb_S256x50x5_S256x50x1_0_0_2
abbrev rd3 : Rect S256x50x5 := Rect.unit (s := S256x50x5) ![0, 0, 3] S256x50x1.size inb_S256x50x5_S256x50x1_0_0_3
abbrev rd4 : Rect S256x50x5 := Rect.unit (s := S256x50x5) ![0, 0, 4] S256x50x1.size inb_S256x50x5_S256x50x1_0_0_4
/-- The whole 256 x 50 scratch (and output block). -/
abbrev rS : Rect S256x50 := Rect.unit (s := S256x50) ![0, 0] S256x50.size inb_S256x50_S256x50_0_0

/-! ## One grid point as a pure function -/

/-- The zero accumulator a first column tile starts from. -/
def zero1 : Vec F S256x50 .f32 := k1_pay1 (F := F)

/-- What the body stores into the scratch at a point, from the row tile `xi`, the column tile `xj` and the scratch's
    contents `s` when the accumulation reads it: `s` plus the column tile's 256 terms. -/
def step1 (xi xj : Vec F S256x50x5 .f32) (s : Vec F S256x50 .f32) : Vec F S256x50 .f32 :=
  k1_pay5 (k1_pay2 (View.ld xi rd0) (View.ld xj rd0) (View.ld xi rd1) (View.ld xj rd1)) (k1_pay3 (View.ld xj rd2)) (k1_pay4 (View.ld xi rd2))
    (View.ld xi rd3) (View.ld xj rd3) (View.ld xi rd4) (View.ld xj rd4) s

/-! ## The body's two conditions, decided over the grid -/

/-- "the column tile is the first" (the scratch is zeroed), as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "the column tile is the last" (the scratch is copied out), as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the column tile is not the last the body stores nothing into the output block, -/
theorem idleAt1_2 : ∀ t : Fin cfg1.N, ¬cond1_1 (grid1.coords t) → cfg1.idle 2 (grid1.coords t) = true := by decide +kernel
/-- and the pipeline does not write the block back there; -/
theorem noFlush1_2 : ∀ t : Fin cfg1.N, ¬cond1_1 (grid1.coords t) → (cfg1.win 2).flush t = false := by decide +kernel
/-- at the last column tile it stores into it. -/
theorem liveAt1_2 : ∀ t : Fin cfg1.N, cond1_1 (grid1.coords t) → cfg1.idle 2 (grid1.coords t) = false := by decide +kernel

/-! ## The accumulator after each point -/

/-- What the scratch holds after the body at position `n`: one step from zero at a first column tile, else one step
    from what the point before left. -/
def accAt (c : Dev nD) : (n : ℕ) → n < cfg1.N → Vec F S256x50 .f32
  | 0, hn => step1 (iblk1 V c 0 ⟨0, hn⟩) (iblk1 V c 1 ⟨0, hn⟩) zero1
  | n + 1, hn =>
    if (n + 1) % 4 = 0 then step1 (iblk1 V c 0 ⟨n + 1, hn⟩) (iblk1 V c 1 ⟨n + 1, hn⟩) zero1
    else step1 (iblk1 V c 0 ⟨n + 1, hn⟩) (iblk1 V c 1 ⟨n + 1, hn⟩) (accAt c n (Nat.lt_of_succ_lt hn))

/-- At a first column tile: one step from zero. -/
theorem accAt_first (c : Dev nD) (t : Fin cfg1.N) (h0 : t.val % 4 = 0) :
    accAt V c t.val t.isLt = step1 (iblk1 V c 0 t) (iblk1 V c 1 t) zero1 := by
  obtain ⟨n, hn⟩ := t
  cases n with
  | zero => rfl
  | succ n => exact (if_pos h0)

/-- At a later column tile: one step from what the point before left. -/
theorem accAt_later (c : Dev nD) (t : Fin cfg1.N) (h0 : ¬t.val % 4 = 0) :
    accAt V c t.val t.isLt = step1 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (if_neg h0)

/-! ## The scratch and the staging memrefs, as the pipeline passes them -/

abbrev ms1_0 (t : Fin cfg1.N) : Memref sig .tc .vmem S256x50x5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x50x5 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x50 .f32 := win1_2.stage (cfg1.slots t 2)
abbrev hs1_2 (t : Fin cfg1.N) : (ms1_2 t).IsWhole := hstage1_2 ((cfg1.slots t 2).cast nbuf1_2)
/-- The scratch operand: a whole scoped buffer of the kernel's own. -/
abbrev scM1 : Memref sig .tc .vmem S256x50 .f32 := Memref.whole cc1_scratch0

end Cert.KernelIdeal.Hand

end
-- ==== Proof.R1Dat.lean ====
/-
  The second kernel region's proof data: what the pipeline rule is told about each window's staging buffer after
  the body at each point, and the invariant between points — the scratch accumulator at what the point before left
  in it.  Both input windows read ONE array (the reshaped product): the row tile holds the left half of its share,
  the column tile the right half, the output array is held outright.
-/
import proofs.«105623_j74646531604915_1_alg».proof.Proof.Gen.KernelIdeal.Launch
import proofs.«105623_j74646531604915_1_alg».proof.Proof.Gen.KernelIdeal.Skeleton
import proofs.«105623_j74646531604915_1_alg».proof.Proof.Gen.KernelIdeal.Points
import proofs.«105623_j74646531604915_1_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- The core's scoped buffers that are no staging buffer of this region — the first region's five staging buffers,
    each at some contents, and the scratch under the assertion `S` — and the generator register at some state. -/
def PhiWith (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ S) ∗ ∃ r, prngReg c r)

/-- The class invariant is that with the scratch at some contents. -/
theorem PhiA1_eq (c : Dev nD) :
    (Pipeline.ΦA spec1 c : sProp 𝕄) = PhiWith c (iprop(∃ d, owns (c : Thread nD τ) scM1 fullShare d)) := by
  unfold Pipeline.ΦA PhiWith; rw [scopedRest1_eq]; simp only [scM1, owns_whole]; rfl

/-- Before position `n`: at the first point the scratch holds anything; afterwards what the point before left. -/
def PhiS (c : Dev nD) : (n : ℕ) → n ≤ cfg1.N → sProp 𝕄
  | 0, _ => Pipeline.ΦA spec1 c
  | n + 1, hn => PhiWith c (owns (c : Thread nD τ) scM1 fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM1 fullShare (accAt V c n hn)) := rfl

theorem PhiS_pos (c : Dev nD) (n : ℕ) (h : n ≤ cfg1.N) (hz : n ≠ 0) :
    PhiS V c n h = PhiWith c (owns (c : Thread nD τ) scM1 fullShare (accAt V c (n - 1) (by omega))) := by
  cases n with
  | zero => exact absurd rfl hz
  | succ n => rfl

/-! ## The proof data -/

/-- The proof data of the region on core `c`: the arrays as the region finds them; after the body at point `t` each
    input tile's buffer at its block and the output's at the accumulator (consulted only at a last column tile, where
    the body copies the accumulator out); the invariant `PhiS`; nothing owed; the shared input array's share halved
    between its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The shares: the one input array's halves, the output outright. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

end Cert.KernelIdeal.Hand

end
-- ==== Proof.R1Runs.lean ====
/-
  The second kernel's body run on whole memrefs, in each of the three cases its two conditions meet on the 4 x 4 grid:
  a first column tile (the scratch is zeroed, then accumulated into), a middle one (accumulated into), the last one
  (accumulated into, then copied into the output block).  In every case the scratch ends at `step1` of the two tiles
  and of what the accumulation found in it.
-/
import proofs.«105623_j74646531604915_1_alg».proof.Proof.Gen.KernelIdeal.Launch
import proofs.«105623_j74646531604915_1_alg».proof.Proof.Gen.KernelIdeal.Skeleton
import proofs.«105623_j74646531604915_1_alg».proof.Proof.Gen.KernelIdeal.Points
import proofs.«105623_j74646531604915_1_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A whole buffer's rectangle at zero offsets -/

section WholeRect

variable {Val : EltTy → Type} {S : Shape} {e : EltTy}

/-- The rectangle of the shape's own sizes at zero offsets (however the zeros are written) is the whole shape: a load
    through it reads the contents as they are, -/
theorem ld_zero_off {off : Fin S.rank → ℕ} (h : off = fun _ => 0) (inb : ∀ a, off a + S.size a ≤ S.size a)
    (X : S.Idx → Val e) : View.ld X (Rect.unit off S.size inb) = X := by
  subst h
  funext x
  show X ((Rect.whole S).emb x) = X x
  rw [Rect.emb_whole_apply]

/-- every index lies in it, -/
theorem mem_zero_off {off : Fin S.rank → ℕ} (h : off = fun _ => 0) (inb : ∀ a, off a + S.size a ≤ S.size a)
    (y : S.Idx) : y ∈ (Rect.unit off S.size inb).set := by
  subst h
  show y ∈ (Rect.whole S).set
  rw [Rect.set_whole]
  exact Finset.mem_univ y

/-- and a store through it, the last of a list, leaves its payload at every index whatever the earlier stores were. -/
theorem canon_zero_off [∀ e, Nonempty (Val e)] {off : Fin S.rank → ℕ} (h : off = fun _ => 0)
    (inb : ∀ a, off a + S.size a ≤ S.size a) (w : S.Idx → Val e) (L : List (View.Piece Val S e)) :
    View.canon ((⟨Rect.unit off S.size inb, w⟩ : View.Piece Val S e) :: L) = w := by
  subst h
  funext y
  have hy := View.canon_cons_emb (Val := Val) (Rect.whole S) w L y
  rw [Rect.emb_whole_apply] at hy
  exact hy

end WholeRect

/-- The scratch's whole rectangle sits at zero offsets. -/
theorem zeros1_S : (![0, 0] : Fin S256x50.rank → ℕ) = fun _ => 0 := by
  funext a; fin_cases a <;> rfl

/-- A list of stores whose last is over the whole 256 x 50 buffer covers the buffer. -/
theorem cover1_S (p : Vec F S256x50 .f32) (L : List (View.Piece (Elt F) S256x50 .f32)) (y : S256x50.Idx) :
    ∃ pc ∈ ((⟨rS, p⟩ : View.Piece (Elt F) S256x50 .f32) :: L), y ∈ pc.1.set :=
  ⟨_, List.mem_cons_self, mem_zero_off (S := S256x50) zeros1_S inb_S256x50_S256x50_0_0 y⟩

/-- A load through the whole rectangle at zero offsets of what a list of stores left, the last of them through that
    rectangle, reads that store's payload. -/
theorem readCov_zero_off {Val : EltTy → Type} {S : Shape} {e : EltTy} [∀ e, Nonempty (Val e)] {sig : RefSig} {κ : Kind} {sp : Space}
    (v : View sig κ sp S e) {off : Fin S.rank → ℕ} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, mem_zero_off h inb y⟩), canon_zero_off h, ld_zero_off h]

set_option maxHeartbeats 1000000 in
/-- A first column tile that is not the last: the scratch, at anything, ends at one step from zero; the output block's
    buffer is handed back untouched. -/
theorem sound_kernel1_A (c : Dev nD) (E : Set ℕ) (i : grid1.Coords)
    (arg2 : Memref sig .tc .vmem S256x50x5 .f32) (harg2 : arg2.IsWhole) (arg3 : Memref sig .tc .vmem S256x50x5 .f32) (harg3 : arg3.IsWhole)
    (arg4 : Memref sig .tc .vmem S256x50 .f32) (harg4 : arg4.IsWhole) (arg5 : Memref sig .tc .vmem S256x50 .f32) (harg5 : arg5.IsWhole)
    (hc0 : cond1_0 i) (hc1 : ¬cond1_1 i)
    (xi xj : Vec F S256x50x5 .f32) (o : Vec F S256x50 .f32) (K : PUnit → sProp 𝕄) :
    iprop(owns (c : Thread nD τ) arg2 fullShare xi ∗ owns (c : Thread nD τ) arg3 fullShare xj ∗ owns (c : Thread nD τ) arg4 fullShare o
        ∗ (∃ d, owns (c : Thread nD τ) arg5 fullShare d)
        ∗ (iprop(owns (c : Thread nD τ) arg2 fullShare xi ∗ owns (c : Thread nD τ) arg3 fullShare xj ∗ owns (c : Thread nD τ) arg4 fullShare o
            ∗ owns (c : Thread nD τ) arg5 fullShare (step1 xi xj zero1)) -∗ K ⟨⟩))
      ⊢ wp frame (wpE (defs₀ (F := F)) Variants.none c none) E (cc1__l1_kernel i arg2 harg2 arg3 harg3 arg4 harg4 arg5 harg5) K := by
  simp only [cc1__l1_kernel_eq_skeleton]; unfold cc1__l1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover1_S _ _), canon_zero_off (S := S256x50) zeros1_S]
  rw [readCov_zero_off (S := S256x50) _ zeros1_S]
  unfold step1 zero1
  simp only [View.readAt_eq_ld, ld_zero_off (S := S256x50) zeros1_S]

set_option maxHeartbeats 1000000 in
/-- A middle column tile: the scratch goes from `s` to one step from `s`; the output block's buffer is handed back
    untouched. -/
theorem sound_kernel1_B (c : Dev nD) (E : Set ℕ) (i : grid1.Coords)
    (arg2 : Memref sig .tc .vmem S256x50x5 .f32) (harg2 : arg2.IsWhole) (arg3 : Memref sig .tc .vmem S256x50x5 .f32) (harg3 : arg3.IsWhole)
    (arg4 : Memref sig .tc .vmem S256x50 .f32) (harg4 : arg4.IsWhole) (arg5 : Memref sig .tc .vmem S256x50 .f32) (harg5 : arg5.IsWhole)
    (hc0 : ¬cond1_0 i) (hc1 : ¬cond1_1 i)
    (xi xj : Vec F S256x50x5 .f32) (o s : Vec F S256x50 .f32) (K : PUnit → sProp 𝕄) :
    iprop(owns (c : Thread nD τ) arg2 fullShare xi ∗ owns (c : Thread nD τ) arg3 fullShare xj ∗ owns (c : Thread nD τ) arg4 fullShare o
        ∗ owns (c : Thread nD τ) arg5 fullShare s
        ∗ (iprop(owns (c : Thread nD τ) arg2 fullShare xi ∗ owns (c : Thread nD τ) arg3 fullShare xj ∗ owns (c : Thread nD τ) arg4 fullShare o
            ∗ owns (c : Thread nD τ) arg5 fullShare (step1 xi xj s)) -∗ K ⟨⟩))
      ⊢ wp frame (wpE (defs₀ (F := F)) Variants.none c none) E (cc1__l1_kernel i arg2 harg2 arg3 harg3 arg4 harg4 arg5 harg5) K := by
  simp only [cc1__l1_kernel_eq_skeleton]; unfold cc1__l1_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover1_S _ _)]
  sl_unfold_words
  rw [canon_zero_off (S := S256x50) zeros1_S]
  unfold step1
  simp only [View.readAt_eq_ld, ld_zero_off (S := S256x50) zeros1_S]

set_option maxHeartbeats 1000000 in
/-- The last column tile: the scratch goes from `s` to one step from `s`, and the output block's buffer, at anything,
    ends at the same. -/
theorem sound_kernel1_C (c : Dev nD) (E : Set ℕ) (i : grid1.Coords)
    (arg2 : Memref sig .tc .vmem S256x50x5 .f32) (harg2 : arg2.IsWhole) (arg3 : Memref sig .tc .vmem S256x50x5 .f32) (harg3 : arg3.IsWhole)
    (arg4 : Memref sig .tc .vmem S256x50 .f32) (harg4 : arg4.IsWhole) (arg5 : Memref sig .tc .vmem S256x50 .f32) (harg5 : arg5.IsWhole)
    (hc0 : ¬cond1_0 i) (hc1 : cond1_1 i)
    (xi xj : Vec F S256x50x5 .f32) (s : Vec F S256x50 .f32) (K : PUnit → sProp 𝕄) :
    iprop(owns (c : Thread nD τ) arg2 fullShare xi ∗ owns (c : Thread nD τ) arg3 fullShare xj ∗ (∃ d, owns (c : Thread nD τ) arg4 fullShare d)
        ∗ owns (c : Thread nD τ) arg5 fullShare s
        ∗ (iprop(owns (c : Thread nD τ) arg2 fullShare xi ∗ owns (c : Thread nD τ) arg3 fullShare xj ∗ owns (c : Thread nD τ) arg4 fullShare (step1 xi xj s)
            ∗ owns (c : Thread nD τ) arg5 fullShare (step1 xi xj s)) -∗ K ⟨⟩))
      ⊢ wp frame (wpE (defs₀ (F := F)) Variants.none c none) E (cc1__l1_kernel i arg2 harg2 arg3 harg3 arg4 harg4 arg5 harg5) K := by
  simp only [cc1__l1_kernel_eq_skeleton]; unfold cc1__l1_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover1_S _ _)]
    sl_unfold_words
    rw [canon_zero_off (S := S256x50) zeros1_S, readCov_zero_off (S := S256x50) _ zeros1_S]
    unfold step1
    simp only [View.readAt_eq_ld, ld_zero_off (S := S256x50) zeros1_S]
  iexists _; isplitr
  swap; · iexact H3
  ipureintro
  sl_unfold_words
  rw [View.read_writes_eq_canon _ _ _ (cover1_S _ _), canon_zero_off (S := S256x50) zeros1_S]
  unfold step1
  simp only [View.readAt_eq_ld, ld_zero_off (S := S256x50) zeros1_S]

end Cert.KernelIdeal.Hand

end
-- ==== Proof.R1.lean ====
/-
  The second kernel region's body obligation: at every grid point, from the invariant (the scratch at what the point
  before left, or at anything before the first point) and the three windows' current staging buffers at what the
  pipeline put there, the body runs to the invariant at this point's accumulator, the two input tiles' buffers as they
  were, and the output block's buffer at the accumulator where the column tile is the last — untouched elsewhere.
-/
import proofs.«105623_j74646531604915_1_alg».proof.Proof.Gen.KernelIdeal.Launch
import proofs.«105623_j74646531604915_1_alg».proof.Proof.Gen.KernelIdeal.Skeleton
import proofs.«105623_j74646531604915_1_alg».proof.Proof.Gen.KernelIdeal.Points
import proofs.«105623_j74646531604915_1_alg».proof.Proof.R1Dat
import proofs.«105623_j74646531604915_1_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the column tile's position: first, middle or last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [accAt_first V c t h0]
      by_cases hz : t.val = 0
      · rw [PhiS_castSucc V c t, PhiS_zero V c _ _ hz, PhiA1_eq]; unfold PhiWith
        iintro ⟨⟨⟨Ha, Hb, Hc, Hd, He, HS⟩, Hg⟩, Ho, ⟨%d0, H0⟩, ⟨%d1, H1⟩, ⟨%d2, H2⟩⟩
        iapply (sound_kernel1_A c Set.univ (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexact HS
        iintro ⟨H0, H1, H2, HS⟩
        isplitl [Ha Hb Hc Hd He HS Hg]
        · isplitr [Hg]
          · isplitl [Ha]; · iexact Ha
            isplitl [Hb]; · iexact Hb
            isplitl [Hc]; · iexact Hc
            isplitl [Hd]; · iexact Hd
            isplitl [He]; · iexact He
            iexact HS
          iexact Hg
        isplitl [Ho]; · iexact Ho
        isplitl [H0]; · iexact H0
        isplitl [H1]; · iexact H1
        iexists _; iexact H2
      · rw [PhiS_castSucc V c t, PhiS_pos V c _ _ hz]; unfold PhiWith
        iintro ⟨⟨⟨Ha, Hb, Hc, Hd, He, HS⟩, Hg⟩, Ho, ⟨%d0, H0⟩, ⟨%d1, H1⟩, ⟨%d2, H2⟩⟩
        iapply (sound_kernel1_A c Set.univ (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexists _; iexact HS
        iintro ⟨H0, H1, H2, HS⟩
        isplitl [Ha Hb Hc Hd He HS Hg]
        · isplitr [Hg]
          · isplitl [Ha]; · iexact Ha
            isplitl [Hb]; · iexact Hb
            isplitl [Hc]; · iexact Hc
            isplitl [Hd]; · iexact Hd
            isplitl [He]; · iexact He
            iexact HS
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [accAt_later V c t h0]
      have hz : t.val ≠ 0 := fun hz => h0 (by rw [hz])
      rw [PhiS_castSucc V c t, PhiS_pos V c _ _ hz]; unfold PhiWith
      iintro ⟨⟨⟨Ha, Hb, Hc, Hd, He, HS⟩, Hg⟩, Ho, ⟨%d0, H0⟩, ⟨%d1, H1⟩, ⟨%d2, H2⟩⟩
      iapply (sound_kernel1_C c Set.univ (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [accAt_later V c t h0]
      have hz : t.val ≠ 0 := fun hz => h0 (by rw [hz])
      rw [PhiS_castSucc V c t, PhiS_pos V c _ _ hz]; unfold PhiWith
      iintro ⟨⟨⟨Ha, Hb, Hc, Hd, He, HS⟩, Hg⟩, Ho, ⟨%d0, H0⟩, ⟨%d1, H1⟩, ⟨%d2, H2⟩⟩
      iapply (sound_kernel1_B c Set.univ (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class invariant back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold PhiWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.KernelIdeal.Hand

end
-- ==== Proof.R1Arrays.lean ====
/-
  The second region's arrays among the core's unscoped buffers.  Two of its three windows read ONE buffer (the
  reshaped product): at the region's entry that buffer's full share is split in two, one half to each window, and at
  the exit the halves — both still at the entry contents, the windows being inputs — are joined again; the output
  window's buffer is held outright and leaves at what the write-backs made of it.
-/
import proofs.«105623_j74646531604915_1_alg».proof.Proof.Gen.KernelIdeal.Launch
import proofs.«105623_j74646531604915_1_alg».proof.Proof.Gen.KernelIdeal.Skeleton
import proofs.«105623_j74646531604915_1_alg».proof.Proof.Gen.KernelIdeal.Points
import proofs.«105623_j74646531604915_1_alg».proof.Proof.R1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two distinct buffers behind the three windows' arrays. -/
theorem image1 : Finset.image (Pipeline.arrRef (cfgs 1).spec) Finset.univ = {main_v1, main_v2} := by decide

/-- ENTRY: the unscoped buffers at `V c` are the region's arrays at the proof data's entry contents and the unscoped rest. -/
theorem entry1 (c : Dev nD) :
    (unscopedBufs c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  unfold Pipeline.arrBufs Dat.arrays
  rw [bigSep_W1, image1, BI.bigSep_insert (by decide), BI.bigSep_singleton]
  rw [share1_0 V c, share1_1 V c, share1_2 V c, (arr_whole1 0).set_eq_univ, (arr_whole1 2).set_eq_univ]
  show iprop(((((c : Thread nD τ).loc main_v1) ↦{fullShare} V c main_v1) ∗ (((c : Thread nD τ).loc main_v2) ↦{fullShare} V c main_v2))
      ∗ Pipeline.unscopedRest (Ix := Unit) (Name := ℕ) (U := UR sig nD τ) (Lvl := ℕ) spec1 c (V c)) ⊢ _
  iintro ⟨⟨H1, H2⟩, Hrest⟩
  ihave H1' := (pointsTo_share (PosShare.mem_left_op_right fullShare)).1 $$ H1
  icases H1' with ⟨H1a, H1b⟩
  isplitr [Hrest]
  · isplitl [H1a]; · iexact H1a
    isplitl [H1b]; · iexact H1b
    iexact H2
  iexact Hrest

/-- EXIT: the arrays at their final contents and the unscoped rest are the unscoped buffers at any valuation `V'` that has
    the output array at what the region left and agrees with `V c` elsewhere. -/
theorem exit1 (c : Dev nD) (V' : (b : Ref sig .tc) → Buf (Elt F) ((c : Thread nD τ).loc b))
    (h2 : V' main_v2 = (dat1 V c).arrAt 2 cfg1.N) (hrest : ∀ b, b ≠ main_v2 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  have e0 : (dat1 V c).arrAt 0 cfg1.N = V' main_v1 :=
    ((dat1 V c).arrAt_in 0 rfl _).trans ((A_eq1 V c 0).trans (hrest main_v1 (by decide)).symm)
  have e1 : (dat1 V c).arrAt 1 cfg1.N = V' main_v1 :=
    ((dat1 V c).arrAt_in 1 rfl _).trans ((A_eq1 V c 1).trans (hrest main_v1 (by decide)).symm)
  have erest : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by
      rw [hrest b (fun e => (Finset.mem_sdiff.mp hb).2 (e ▸ (by decide : main_v2 ∈ Finset.univ.image (Pipeline.arrRef spec1))))]
  rw [Pipeline.unscopedBufs_split₀ cfgs 1 winFacts₀1.arr_unscoped c V']
  unfold Pipeline.arrBufs Dat.arrays
  rw [bigSep_W1, image1, BI.bigSep_insert (by decide), BI.bigSep_singleton]
  rw [share1_0 V c, share1_1 V c, share1_2 V c, (arr_whole1 0).set_eq_univ, (arr_whole1 2).set_eq_univ, erest]
  show iprop(((((c : Thread nD τ).loc main_v1) ↦{fullShare.left} (dat1 V c).arrAt 0 cfg1.N)
        ∗ (((c : Thread nD τ).loc main_v1) ↦{fullShare.right} (dat1 V c).arrAt 1 cfg1.N)
        ∗ (((c : Thread nD τ).loc main_v2) ↦{fullShare} (dat1 V c).arrAt 2 cfg1.N))
      ∗ Pipeline.unscopedRest (Ix := Unit) (Name := ℕ) (U := UR sig nD τ) (Lvl := ℕ) spec1 c V')
    ⊢ iprop(((((c : Thread nD τ).loc main_v1) ↦{fullShare} V' main_v1) ∗ (((c : Thread nD τ).loc main_v2) ↦{fullShare} V' main_v2))
      ∗ Pipeline.unscopedRest (Ix := Unit) (Name := ℕ) (U := UR sig nD τ) (Lvl := ℕ) spec1 c V')
  rw [e0, e1, h2]
  iintro ⟨⟨H1a, H1b, H2⟩, Hrest⟩
  isplitr [Hrest]
  · isplitl [H1a H1b]
    · iapply (pointsTo_share (PosShare.mem_left_op_right fullShare)).2
      isplitl [H1a]; · iexact H1a
      iexact H1b
    iexact H2
  iexact Hrest

end Cert.KernelIdeal.Hand

end
-- ==== Proof.Run.lean ====
/-
  THE RUN of @main: kernel region 0 (the row-blocked product), the host reshape, kernel region 1 (the pairwise
  feature), the host concatenation — as four segments over one thread state per core: every unscoped buffer at the
  boundary's contents, the generator register at some state, nothing owed.  The buffer contents at each boundary are a
  fold from the launch memory: a region's arrays at what its write-backs leave, a host stretch's results at its
  operations' values.  Every weakly fair execution terminates and the final memory holds every unscoped buffer at the
  last boundary's contents; the frame and the value of the result are read off that.
-/
import proofs.«105623_j74646531604915_1_alg».proof.Proof.Gen.KernelIdeal.Launch
import proofs.«105623_j74646531604915_1_alg».proof.Proof.Gen.KernelIdeal.Skeleton
import proofs.«105623_j74646531604915_1_alg».proof.Proof.Gen.KernelIdeal.Points
import proofs.«105623_j74646531604915_1_alg».proof.Proof.R0
import proofs.«105623_j74646531604915_1_alg».proof.Proof.R1
import proofs.«105623_j74646531604915_1_alg».proof.Proof.R1Arrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (region 0's entry). -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the reshape (region 1's entry). -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- At region 1's exit: its output array at what the pipeline leaves, every other buffer as entered. -/
def W3 (c : Dev nD) : Valuation τ sig (Elt F) :=
  Function.update (W2 m ρ c) (Proc.devRef .tc main_v2) ((dat1 (V2r m ρ) c).arrAt 2 cfg1.N)
abbrev V3r : (c : Dev nD) → (b : Ref sig .tc) → Buf (Elt F) ((c : Thread nD τ).loc b) := fun c b => W3 m ρ c b
theorem W3_main_v2 (c : Dev nD) : V3r m ρ c main_v2 = (dat1 (V2r m ρ) c).arrAt 2 cfg1.N := by
  unfold V3r W3; exact Function.update_self _ _ _
theorem W3_of_ne (c : Dev nD) (b : Ref sig .tc) (hb : b ≠ main_v2) : V3r m ρ c b = V2r m ρ c b := by
  unfold V3r V2r W3; exact Function.update_of_ne (StableHlo.devRef_ne_of_ne hb) _ _
/-- After the concatenation (the return). -/
abbrev W4 : Dev nD → Valuation τ sig (Elt F) := fun c => StableHlo.after hostOps2 (W3 m ρ c)

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V0r m ρ) c
  | ⟨1, _⟩ => fun c => dat1 (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W0`, left at `W1`. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. The one input array's
    share is split between the two windows at the entry and joined at the exit; the scratch rides in the invariant. -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := entry1 (V2r m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2r m ρ) c)
    unfold Pipeline.ΦA
    iintro ⟨Hp, -, Hr⟩
    isplitl [Hr]; · iexact Hr
    iexact Hp
  hout c := by
    rw [Pipeline.ownSems0_none]
    refine BIBase.Entails.trans (hout1 (V2r m ρ) c) ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · (Pipeline.pin (pcfgs (F := F)) admH 1).N)
          ∗ Pipeline.unscopedRest (Ix := Unit) (Name := ℕ) (U := UR sig nD τ) (Lvl := ℕ) spec1 c (V2r m ρ c))
        ⊢ (unscopedBufs c (V3r m ρ c) : sProp 𝕄) :=
      exit1 (V2r m ρ) c (V3r m ρ c) (W3_main_v2 m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.RunValue.lean ====
/-
  What the last boundary's contents are, buffer by buffer: the two arguments are the launch contents (no region and
  no host operation writes them); the array the second region reads is the reshape of what the first region left;
  the result is the concatenation of the first argument and what the second region left.  From these and the run:
  the frame (the arguments end unchanged) and the run with the result named.
-/
import proofs.«105623_j74646531604915_1_alg».proof.Proof.Gen.KernelIdeal.Launch
import proofs.«105623_j74646531604915_1_alg».proof.Proof.Gen.KernelIdeal.Skeleton
import proofs.«105623_j74646531604915_1_alg».proof.Proof.Gen.KernelIdeal.Points
import proofs.«105623_j74646531604915_1_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 is entered at the launch contents. -/
theorem V0r_main_arg0 (c : Dev nD) : V0r m ρ c main_arg0 = m ((c : Thread nD τ).loc main_arg0) := rfl
theorem V0r_main_arg1 (c : Dev nD) : V0r m ρ c main_arg1 = m ((c : Thread nD τ).loc main_arg1) := rfl

/-- Region 1 reads the reshape of the product region 0 left. -/
theorem V2r_main_v1 (c : Dev nD) :
    V2r m ρ c main_v1 = shapeCast S1024x50x5 ((dat0 (V0r m ρ) c).arrAt 2 cfg0.N) shapeCasts_S1024x250_S1024x50x5 := by
  -- the one host operation of the stretch writes main_v1: the reshape of main_v0, which is region 0's output array
  show StableHlo.after hostOps1 (W1 m ρ c) (Proc.devRef .tc main_v1) = _
  after_results
  have h : W1 m ρ c (Proc.devRef .tc main_v0) = (dat0 (V0r m ρ) c).arrAt 2 cfg0.N := W1_arr m ρ c 2
  rw [h]
  rfl

/-- At region 1's exit an argument is still the launch contents: region 1 writes only its output array, the reshape
    writes only its result, and region 0 reads the argument through an input window, whose array stays as entered. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
        simp only [hostOps1, List.Forall, StableHlo.reshape_writes, Finset.mem_singleton]
        exact StableHlo.devRef_ne_of_ne (by decide)))
    _ = W0 m ρ c (Proc.devRef .tc main_arg0) := (W1_arr m ρ c 0).trans (((dat0 (V0r m ρ) c).arrAt_in 0 rfl _).trans (A_eq0 (V0r m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
        simp only [hostOps1, List.Forall, StableHlo.reshape_writes, Finset.mem_singleton]
        exact StableHlo.devRef_ne_of_ne (by decide)))
    _ = W0 m ρ c (Proc.devRef .tc main_arg1) := (W1_arr m ρ c 1).trans (((dat0 (V0r m ρ) c).arrAt_in 1 rfl _).trans (A_eq0 (V0r m ρ) c 1))
    _ = m ((c : Thread nD τ).loc main_arg1) := rfl

/-- The arguments reach the end as launched. -/
theorem W4_main_arg0 (c : Dev nD) : W4 m ρ c (Proc.devRef .tc main_arg0) = m ((c : Thread nD τ).loc main_arg0) := by
  -- the concatenation writes only the result buffer
  calc W4 m ρ c (Proc.devRef .tc main_arg0)
    _ = W3 m ρ c (Proc.devRef .tc main_arg0) := StableHlo.after_of_forall_not_mem (b := Proc.devRef .tc main_arg0) _ _ (List.forall_iff_forall_mem.mp (by
        simp only [hostOps2, List.Forall, StableHlo.binary_writes, Finset.mem_singleton]
        exact StableHlo.devRef_ne_of_ne (by decide)))
    _ = m ((c : Thread nD τ).loc main_arg0) := W3_main_arg0 m ρ c
theorem W4_main_arg1 (c : Dev nD) : W4 m ρ c (Proc.devRef .tc main_arg1) = m ((c : Thread nD τ).loc main_arg1) := by
  -- the concatenation writes only the result buffer
  calc W4 m ρ c (Proc.devRef .tc main_arg1)
    _ = W3 m ρ c (Proc.devRef .tc main_arg1) := StableHlo.after_of_forall_not_mem (b := Proc.devRef .tc main_arg1) _ _ (List.forall_iff_forall_mem.mp (by
        simp only [hostOps2, List.Forall, StableHlo.binary_writes, Finset.mem_singleton]
        exact StableHlo.devRef_ne_of_ne (by decide)))
    _ = m ((c : Thread nD τ).loc main_arg1) := W3_main_arg1 m ρ c

/-- The result: the first argument beside what region 1 left, joined along the columns. -/
theorem W4_main_v3 (c : Dev nD) :
    W4 m ρ c (Proc.devRef .tc main_v3)
      = concatenate S1024x562 1 [⟨S1024x512, m ((c : Thread nD τ).loc main_arg0)⟩, ⟨S1024x50, (dat1 (V2r m ρ) c).arrAt 2 cfg1.N⟩]
          concatenates_S1024x512_S1024x50_S1024x562_d1 := by
  -- the concatenation's value at its two operands: the first argument, still as launched, and region 1's output array
  show StableHlo.after hostOps2 (W3 m ρ c) (Proc.devRef .tc main_v3) = _
  after_results
  have h2 : W3 m ρ c (Proc.devRef .tc main_v2) = (dat1 (V2r m ρ) c).arrAt 2 cfg1.N := W3_main_v2 m ρ c
  rw [h2, W3_main_arg0 m ρ c]

/-- THE FRAME, at any float instance: every weakly fair execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

/-- The run with the result named: the result buffer ends at the last boundary's contents, the arguments unchanged. -/
theorem run_value : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v3 (by decide)),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.K0Value.lean ====
/-
  What the first kernel region leaves in its output array, over the extended reals: entry (i, n) is the sum over the
  512 contracted positions f of left[i, f] * right[f, n] — each row block's product into a zero accumulator, the four
  blocks tiling the 1024 rows.
-/
import proofs.«105623_j74646531604915_1_alg».proof.Proof.R0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe ValueIdx
open Idealize.ShloMosaic.Pipeline (Dat)

variable (V : (c : Dev nD) → (b : Ref sig .tc) → Buf (Elt Ideal) ((c : Thread nD τ).loc b))

/-- The two operands as the region finds them and the product array after it, at their literal types. -/
abbrev lhsArr (c : Dev nD) : (⟨S1024x512, .f32⟩ : BufTy).Contents (Elt Ideal) := V c main_arg0
abbrev rhsArr (c : Dev nD) : (⟨S512x250, .f32⟩ : BufTy).Contents (Elt Ideal) := V c main_arg1
abbrev prodArr (c : Dev nD) : (⟨S1024x250, .f32⟩ : BufTy).Contents (Elt Ideal) := (dat0 (F := Ideal) V c).arrAt 2 cfg0.N

/-! ## One block's product at an entry -/

/-- The left operand of the block product is read at the output's row … -/
theorem lhs_blockProd_0 (i : S256x250.Idx) (q : dot_S256x512_S512x250_S256x250_1_0_0_1_n_n.contr.Idx) :
    (dot_S256x512_S512x250_S256x250_1_0_0_1_n_n.lhsIdx i q 0).val = (i 0).val := by
  unfold DotDims.lhsIdx
  rw [dif_neg (show ¬(0 : Fin S256x512.rank) ∈ dot_S256x512_S512x250_S256x250_1_0_0_1_n_n.lhsBatch by decide), dif_pos (show (0 : Fin S256x512.rank) ∈ dot_S256x512_S512x250_S256x250_1_0_0_1_n_n.lhsNonContracting by decide)]
  rfl
/-- … and at the contracted position; -/
theorem lhs_blockProd_1 (i : S256x250.Idx) (q : dot_S256x512_S512x250_S256x250_1_0_0_1_n_n.contr.Idx) :
    (dot_S256x512_S512x250_S256x250_1_0_0_1_n_n.lhsIdx i q 1).val = (q ⟨0, by decide⟩).val :=
  dot_S256x512_S512x250_S256x250_1_0_0_1_n_n.lhsIdx_val_of_single rfl i q
/-- the right operand at the contracted position … -/
theorem rhs_blockProd_0 (i : S256x250.Idx) (q : dot_S256x512_S512x250_S256x250_1_0_0_1_n_n.contr.Idx) :
    (dot_S256x512_S512x250_S256x250_1_0_0_1_n_n.rhsIdx i q 0).val = (q ⟨0, by decide⟩).val :=
  dot_S256x512_S512x250_S256x250_1_0_0_1_n_n.rhsIdx_val_of_single rfl i q
/-- … and at the output's column. -/
theorem rhs_blockProd_1 (i : S256x250.Idx) (q : dot_S256x512_S512x250_S256x250_1_0_0_1_n_n.contr.Idx) :
    (dot_S256x512_S512x250_S256x250_1_0_0_1_n_n.rhsIdx i q 1).val = (i 1).val := by
  unfold DotDims.rhsIdx
  rw [dif_neg (show ¬(1 : Fin S512x250.rank) ∈ dot_S256x512_S512x250_S256x250_1_0_0_1_n_n.rhsBatch by decide), dif_pos (show (1 : Fin S512x250.rank) ∈ dot_S256x512_S512x250_S256x250_1_0_0_1_n_n.rhsNonContracting by decide)]
  rfl

/-- A row block of the left operand, the right operand, and a row block of the product, at their literal types. -/
abbrev LhsBlock := Vec Ideal S256x512 .f32
abbrev RhsBlock := Vec Ideal S512x250 .f32
abbrev ProdBlock := Vec Ideal S256x250 .f32

/-- The body's payload at entry (p, q): the product accumulated into a zero matrix is the plain sum over the 512
    contracted positions. -/
theorem blockProd_apply (x0 : LhsBlock) (x1 : RhsBlock) (p : Fin 256) (q : Fin 250) :
    (k0_pay1 (F := Ideal) x0 x1 : ProdBlock) (ix2 p q) = ∑ f : Fin 512, x0 (ix2 p f) * x1 (ix2 f q) := by
  unfold k0_pay1
  simp only [matmul]
  rw [Ideal.matmul_constant_zero_apply, ← Equiv.sum_comp (ValueIdx.contrEquiv1 dot_S256x512_S512x250_S256x250_1_0_0_1_n_n 512 rfl rfl).symm]
  refine Finset.sum_congr rfl fun k _ => ?_
  have hk := ValueIdx.contrEquiv1_symm_val dot_S256x512_S512x250_S256x250_1_0_0_1_n_n 512 rfl rfl k
  have el : dot_S256x512_S512x250_S256x250_1_0_0_1_n_n.lhsIdx (ix2 p q) ((ValueIdx.contrEquiv1 dot_S256x512_S512x250_S256x250_1_0_0_1_n_n 512 rfl rfl).symm k) = ix2 p k := funext fun a => Fin.ext (by
    match a with
    | ⟨0, _⟩ => exact lhs_blockProd_0 _ _
    | ⟨1, _⟩ => exact (lhs_blockProd_1 _ _).trans hk)
  have er : dot_S256x512_S512x250_S256x250_1_0_0_1_n_n.rhsIdx (ix2 p q) ((ValueIdx.contrEquiv1 dot_S256x512_S512x250_S256x250_1_0_0_1_n_n 512 rfl rfl).symm k) = ix2 k q := funext fun a => Fin.ext (by
    match a with
    | ⟨0, _⟩ => exact (rhs_blockProd_0 _ _).trans hk
    | ⟨1, _⟩ => exact rhs_blockProd_1 _ _)
  rw [el, er]

/-! ## The whole product, and each point's blocks as parts of the arrays -/

/-- The full matrix product of a 1024 x 512 by a 512 x 250 array: entry (i, n) sums left[i, f] * right[f, n] over f. -/
def matProd (a : (⟨S1024x512, .f32⟩ : BufTy).Contents (Elt Ideal)) (b : (⟨S512x250, .f32⟩ : BufTy).Contents (Elt Ideal)) :
    (⟨S1024x250, .f32⟩ : BufTy).Contents (Elt Ideal) :=
  fun i => ∑ f : Fin 512, a (ix2 (⟨(i 0).val, (i 0).isLt⟩ : Fin 1024) f) * b (ix2 f (⟨(i 1).val, (i 1).isLt⟩ : Fin 250))

theorem matProd_apply (a : (⟨S1024x512, .f32⟩ : BufTy).Contents (Elt Ideal)) (b : (⟨S512x250, .f32⟩ : BufTy).Contents (Elt Ideal))
    (i : Fin 1024) (n : Fin 250) : matProd a b (ix2 i n) = ∑ f : Fin 512, a (ix2 i f) * b (ix2 f n) := rfl

/-- The windows' block indices, decided over the four points: point t takes row block t of the left operand and of
    the product, and always the one block that is the whole right operand. -/
theorem blockIdx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, f) of the left operand's block at point t is entry (256 t + p, f) of the operand. -/
theorem lhsBlock_apply (c : Dev nD) (t : Fin cfg0.N) (p : Fin 256) (f : Fin 512) (r : Fin 1024) (hr : r.val = 256 * t.val + p.val) :
    (iblk0 V c 0 t : LhsBlock) (ix2 p f) = lhsArr V c (ix2 r f) := by
  obtain ⟨e0, e1, -⟩ := blockIdx_facts t
  unfold iblk0
  rw [View.read_apply]
  show V c main_arg0 _ = V c main_arg0 _
  congr 1
  funext a; apply Fin.ext
  match a with
  | ⟨0, _⟩ => show win0_0.index t (0 : Fin 2) * 256 + 1 * p.val = r.val; omega
  | ⟨1, _⟩ => show win0_0.index t (1 : Fin 2) * 512 + 1 * f.val = f.val; omega

/-- The right operand's block at every point is the operand itself. -/
theorem rhsBlock_apply (c : Dev nD) (t : Fin cfg0.N) (f : Fin 512) (q : Fin 250) :
    (iblk0 V c 1 t : RhsBlock) (ix2 f q) = rhsArr V c (ix2 f q) := by
  obtain ⟨-, -, e2, e3, -⟩ := blockIdx_facts t
  unfold iblk0
  rw [View.read_apply]
  show V c main_arg1 _ = V c main_arg1 _
  congr 1
  funext a; apply Fin.ext
  match a with
  | ⟨0, _⟩ => show win0_1.index t (0 : Fin 2) * 512 + 1 * f.val = f.val; omega
  | ⟨1, _⟩ => show win0_1.index t (1 : Fin 2) * 250 + 1 * q.val = q.val; omega

/-- Entry (p, q) of what the body leaves at point t is entry (256 t + p, q) of the full product: the contraction runs
    over whole rows of the left block and whole columns of the right operand. -/
theorem pointProd_apply (c : Dev nD) (t : Fin cfg0.N) (p : Fin 256) (q : Fin 250) (r : Fin 1024) (hr : r.val = 256 * t.val + p.val) :
    (k0_pay1 (F := Ideal) (iblk0 V c 0 t : LhsBlock) (iblk0 V c 1 t : RhsBlock) : ProdBlock) (ix2 p q)
      = matProd (lhsArr V c) (rhsArr V c) (ix2 r q) := by
  refine (blockProd_apply _ _ p q).trans ?_
  refine Eq.trans ?_ (matProd_apply _ _ r q).symm
  refine Finset.sum_congr rfl fun f _ => ?_
  rw [lhsBlock_apply V c t p f r hr, rhsBlock_apply V c t f q]

/-! ## From the four blocks to the array -/

theorem hz : (![0, 0] : Fin 2 → Nat) = fun _ => 0 := funext fun a => by fin_cases a <;> rfl

/-- What point t writes back is row block t of the full product of the operands as the region finds them. -/
theorem flushed_eq (c : Dev nD) (t : Fin cfg0.N) :
    (dat0 (F := Ideal) V c).flushed 2 t = ((cfg0.win 2).blk t).view.read (Elt Ideal) (matProd (lhsArr V c) (rhsArr V c)) := by
  show (cfg0.win 2).cut (grid0.coords t) ((dat0 (F := Ideal) V c).after 2 t) = _
  rw [after0_2]
  unfold out0_2
  rw [View.canon_unit_zero hz]
  simp only [View.ld_unit_zero (S := S256x512) hz, View.ld_unit_zero (S := S512x250) hz]
  obtain ⟨-, -, -, -, e4, e5⟩ := blockIdx_facts t
  have ht : t.val < 4 := lt_of_lt_of_eq t.isLt N_0
  funext j
  obtain ⟨p, q, rfl⟩ : ∃ (p : Fin 256) (q : Fin 250), j = ix2 p q := ⟨j 0, j 1, eq_ix2 j⟩
  show (k0_pay1 (F := Ideal) (iblk0 V c 0 t : LhsBlock) (iblk0 V c 1 t : RhsBlock) : ProdBlock) (ix2 p q)
    = matProd (lhsArr V c) (rhsArr V c) (((cfg0.win 2).blk t).view.emb (ix2 p q))
  refine (pointProd_apply V c t p q ⟨256 * t.val + p.val, by have := p.isLt; omega⟩ rfl).trans ?_
  refine congrArg (matProd (lhsArr V c) (rhsArr V c)) (funext fun a => Fin.ext ?_)
  match a with
  | ⟨0, _⟩ => show 256 * t.val + p.val = win0_2.index t (0 : Fin 2) * 256 + 1 * p.val; omega
  | ⟨1, _⟩ => show q.val = win0_2.index t (1 : Fin 2) * 250 + 1 * q.val; omega

/-- An entry of the product array is in point t's block iff each coordinate is in the block's range on its axis. -/
theorem mem_prodBlock (t : Fin cfg0.N) (i : S1024x250.Idx) :
    i ∈ ((cfg0.win 2).blk t).view.set ↔ ∀ a : Fin 2, win0_2.index t a * S256x250.size a ≤ (i a).val ∧ (i a).val < win0_2.index t a * S256x250.size a + S256x250.size a := by
  show i ∈ ((View.whole main_v0).slice (win0_2.rect t)).set ↔ _
  rw [View.set_slice_whole, Rect.mem_set_unit]
  exact Iff.rfl

/-- The four row blocks tile the 1024 rows: row r lies in the block of point r / 256, which is written back. -/
theorem prodBlocks_cover (i : S1024x250.Idx) :
    ∃ t : Fin cfg0.N, (cfg0.win 2).flush t = true ∧ i ∈ ((cfg0.win 2).blk t).view.set := by
  have hi0 : (i 0).val < 1024 := (i 0).isLt
  have hi1 : (i 1).val < 250 := (i 1).isLt
  have hN : cfg0.N = 4 := N_0
  obtain ⟨t, ht⟩ : ∃ t : Fin cfg0.N, t.val = (i 0).val / 256 := ⟨⟨(i 0).val / 256, by rw [hN]; omega⟩, rfl⟩
  obtain ⟨-, -, -, -, e4, e5⟩ := blockIdx_facts t
  refine ⟨t, flush0_2 t, ?_⟩
  rw [mem_prodBlock]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 250 ≤ (i 1).val ∧ (i 1).val < win0_2.index t (1 : Fin 2) * 250 + 250; omega

/-- So the product array ends holding the full product of the two operands. -/
theorem prodArr_eq (c : Dev nD) : prodArr V c = matProd (lhsArr V c) (rhsArr V c) :=
  (dat0 (F := Ideal) V c).arrAt_eq_of_cover 2 (matProd (lhsArr V c) (rhsArr V c)) (fun t _ => flushed_eq V c t) prodBlocks_cover

/-- The product array after the region, entry by entry. -/
theorem final0 (c : Dev nD) (i : Fin 1024) (n : Fin 250) :
    prodArr V c (ix2 i n) = ∑ f : Fin 512, lhsArr V c (ix2 i f) * rhsArr V c (ix2 f n) := by
  exact (congrFun (prodArr_eq V c) (ix2 i n)).trans (matProd_apply _ _ i n)

end Cert.KernelIdeal.Hand

end
-- ==== Proof.StepValue.lean ====
/-
  One grid point of the second kernel read at an index, over the extended reals: entry (r, k) of the new accumulator is
  the old entry plus, over the 256 rows j of the column tile, exp of minus the L1 distance between row r of the row
  tile and row j of the column tile in kernel k.  (The body's 0 + ... and 0 - ... are absorbed here.)
-/
import proofs.«105623_j74646531604915_1_alg».proof.Proof.R1Defs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic ValueIdx

namespace Step

/-! ## The layout operations of one coordinate slice, read at an index -/

/-- A [256, 50, 1] vector cast to [256, 50] reads, at (a, b), the operand at (a, b, 0). -/
theorem cast_drop_last (v : Vec Ideal S256x50x1 .f32) (h : S256x50x1.ShapeCasts S256x50) (a : Fin 256) (b : Fin 50) :
    shapeCast S256x50 v h (ix2 a b) = v (ix3 a b (0 : Fin 1)) :=
  shapeCast_apply v h _ _ (by
    rw [Shape.rowMajor_val_three, Shape.rowMajor_val_two]
    show (a.val * 50 + b.val) * 1 + 0 = a.val * 50 + b.val
    omega)

/-- The row operand: a slice cast to [256, 50], back to [256, 50, 1] and broadcast along the last axis reads, at
    (r, k, j), the slice at (r, k, 0). -/
theorem row_operand_apply (v : Vec Ideal S256x50x1 .f32) (h1 : S256x50x1.ShapeCasts S256x50)
    (h2 : S256x50.ShapeCasts S256x50x1) (h3 : S256x50x1.Broadcasts S256x50x256) (r : Fin 256) (k : Fin 50) (j : Fin 256) :
    broadcastTo S256x50x256 (shapeCast S256x50x1 (shapeCast S256x50 v h1) h2) h3 (ix3 r k j) = v (ix3 r k (0 : Fin 1)) := by
  rw [shapeCast_shapeCast]
  refine broadcastTo_apply v h3 (ix3 r k j) (ix3 r k (0 : Fin 1)) fun ax => ?_
  match ax with
  | ⟨0, _⟩ => rfl
  | ⟨1, _⟩ => rfl
  | ⟨2, _⟩ => rfl

/-- The column operand: a slice cast to [256, 50], transposed to [50, 256], given a leading unit axis and broadcast
    along the first axis reads, at (r, k, j), the slice at (j, k, 0). -/
theorem col_operand_apply (v : Vec Ideal S256x50x1 .f32) (h1 : S256x50x1.ShapeCasts S256x50)
    (ht : S256x50.Transposes [1, 0] S50x256) (h2 : S50x256.ShapeCasts S1x50x256) (h3 : S1x50x256.Broadcasts S256x50x256)
    (r : Fin 256) (k : Fin 50) (j : Fin 256) :
    broadcastTo S256x50x256 (shapeCast S1x50x256 (transpose S50x256 [1, 0] (shapeCast S256x50 v h1) ht) h2) h3 (ix3 r k j)
      = v (ix3 j k (0 : Fin 1)) := by
  refine (broadcastTo_apply _ h3 (ix3 r k j) (ix3 (0 : Fin 1) k j) fun ax => ?_).trans ?_
  · match ax with
    | ⟨0, _⟩ => rfl
    | ⟨1, _⟩ => rfl
    | ⟨2, _⟩ => rfl
  · refine (shapeCast_ab_1ab_apply _ h2 (0 : Fin 1) k j).trans ?_
    refine (transpose_ix2_apply _ ht k j).trans ?_
    exact cast_drop_last v h1 j k

/-- Coordinate slice `o` of a [256, 50, 5] tile read at (a, b, 0) is the tile at (a, b, o). -/
theorem slice_apply (x : Vec Ideal S256x50x5 .f32) (o : Nat)
    (inb : ∀ a, (![0, 0, o] : Fin 3 → Nat) a + S256x50x1.size a ≤ S256x50x5.size a) (a : Fin 256) (b : Fin 50) (d : Fin 5)
    (hd : d.val = o) :
    View.ld x (Rect.unit (s := S256x50x5) ![0, 0, o] S256x50x1.size inb) (ix3 a b (0 : Fin 1)) = x (ix3 a b d) := by
  show x _ = x _
  refine congrArg x (funext fun ax => Fin.ext ?_)
  match ax with
  | ⟨0, _⟩ => show 0 + 1 * a.val = a.val; omega
  | ⟨1, _⟩ => show 0 + 1 * b.val = b.val; omega
  | ⟨2, _⟩ => show o + 1 * 0 = d.val; omega

/-- Coordinate slice `o` of a tile, as a vector of the ideal instance. -/
abbrev sliceOf (x : Vec Ideal S256x50x5 .f32) (o : Nat)
    (inb : ∀ a, (![0, 0, o] : Fin 3 → Nat) a + S256x50x1.size a ≤ S256x50x5.size a) : FVec Ideal S256x50x1 .f32 :=
  View.ld x (Rect.unit (s := S256x50x5) ![0, 0, o] S256x50x1.size inb)

/-- One coordinate's term at (r, k, j): the absolute difference, as a maximum, of the row tile at (r, k, d) and the
    column tile at (j, k, d). -/
theorem term_apply (xi xj : Vec Ideal S256x50x5 .f32) (o : Nat)
    (inb : ∀ a, (![0, 0, o] : Fin 3 → Nat) a + S256x50x1.size a ≤ S256x50x5.size a)
    (h1 : S256x50x1.ShapeCasts S256x50) (h2 : S256x50.ShapeCasts S256x50x1) (h3 : S256x50x1.Broadcasts S256x50x256)
    (ht : S256x50.Transposes [1, 0] S50x256) (h4 : S50x256.ShapeCasts S1x50x256) (h5 : S1x50x256.Broadcasts S256x50x256)
    (r : Fin 256) (k : Fin 50) (j : Fin 256) (d : Fin 5) (hd : d.val = o) :
    absf (F := Ideal) (subf (F := Ideal)
        (broadcastTo S256x50x256 (shapeCast S256x50x1 (shapeCast S256x50 (sliceOf xi o inb) h1) h2) h3)
        (broadcastTo S256x50x256 (shapeCast S1x50x256 (transpose S50x256 [1, 0] (shapeCast S256x50 (sliceOf xj o inb) h1) ht) h4) h5))
        (ix3 r k j)
      = max (xi (ix3 r k d) - xj (ix3 j k d)) (-(xi (ix3 r k d) - xj (ix3 j k d))) := by
  have e1 := (row_operand_apply (sliceOf xi o inb) h1 h2 h3 r k j).trans (slice_apply xi o inb r k d hd)
  have e2 := (col_operand_apply (sliceOf xj o inb) h1 ht h4 h5 r k j).trans (slice_apply xj o inb j k d hd)
  show max (_ - _) (-(_ - _)) = _
  rw [e1, e2]

/-! ## The pointwise shell around the five terms -/

/-- Five terms added in turn onto a vector that is zero at the index: their sum there. -/
theorem sum5_apply (Z a0 a1 a2 a3 a4 : FVec Ideal S256x50x256 .f32) (i : S256x50x256.Idx) (hZ : Z i = 0)
    (t0 t1 t2 t3 t4 : EReal) (h0 : a0 i = t0) (h1 : a1 i = t1) (h2 : a2 i = t2) (h3 : a3 i = t3) (h4 : a4 i = t4) :
    addf (addf (addf (addf (addf Z a0) a1) a2) a3) a4 i = t0 + t1 + t2 + t3 + t4 := by
  show ((((Z i + a0 i) + a1 i) + a2 i) + a3 i) + a4 i = _
  rw [hZ, zero_add, h0, h1, h2, h3, h4]

/-- exp of zero minus a vector, at an index: exp of minus the element. -/
theorem exp_neg_apply (P : FVec Ideal S256x50x256 .f32) (i : S256x50x256.Idx) :
    exp (subf (broadcast S256x50x256 (Scalar.ofBits (F := Ideal) .f32 0x00000000#32)) P) i = Ideal.exp (-(P i)) := by
  show Ideal.exp (Ideal.ofBits .f32 0x00000000#32 - P i) = _
  rw [Ideal.ofBits_zero_f32, zero_sub]

/-- The lane sum's source index over (r, k) at lane j is (r, k, j). -/
theorem lift_ix (h : S256x50x256.Reduces [2] S256x50) (r : Fin 256) (k : Fin 50) (j : Fin 256) :
    h.lift (ix2 r k) j = ix3 r k j :=
  funext fun c => Fin.ext (match c with | ⟨0, _⟩ => rfl | ⟨1, _⟩ => rfl | ⟨2, _⟩ => rfl)

end Step

open Step

/-! ## The two statements -/

/-- The zero accumulator is zero everywhere. -/
theorem zero1_apply (y : S256x50.Idx) : zero1 (F := Ideal) y = 0 := by
  unfold zero1 k1_pay1
  rw [shapeCast_self]
  exact Ideal.ofBits_zero_f32

/-- One step at entry (r, k). -/
theorem step1_apply (xi xj : Vec Ideal S256x50x5 .f32) (s : Vec Ideal S256x50 .f32) (r : Fin 256) (k : Fin 50) :
    step1 (F := Ideal) xi xj s (ix2 r k)
      = s (ix2 r k) + ∑ j : Fin 256, Ideal.exp (-(∑ d : Fin 5,
          max (xi (ix3 r k d) - xj (ix3 j k d)) (-(xi (ix3 r k d) - xj (ix3 j k d))))) := by
  unfold step1 k1_pay5 k1_pay2 k1_pay3 k1_pay4
  rw [shapeCast_self]
  refine (addf_apply s _ (ix2 r k)).trans (congrArg (s (ix2 r k) + ·) ?_)
  refine (Ideal.multiReduction_add_single _ _ _ _ _ (ix2 r k)).trans ?_
  refine Finset.sum_congr rfl fun (j : Fin 256) _ => ?_
  rw [lift_ix]
  refine (exp_neg_apply _ (ix3 r k j)).trans (congrArg (fun t => Ideal.exp (-t)) ?_)
  rw [Fin.sum_univ_five]
  exact sum5_apply _ _ _ _ _ _ (ix3 r k j) Ideal.ofBits_zero_f32 _ _ _ _ _
    (term_apply xi xj 0 _ _ _ _ _ _ _ r k j 0 rfl) (term_apply xi xj 1 _ _ _ _ _ _ _ r k j 1 rfl)
    (term_apply xi xj 2 _ _ _ _ _ _ _ r k j 2 rfl) (term_apply xi xj 3 _ _ _ _ _ _ _ r k j 3 rfl)
    (term_apply xi xj 4 _ _ _ _ _ _ _ r k j 4 rfl)

end Cert.KernelIdeal.Hand

end
-- ==== Proof.Spec.lean ====
/-
  The mathematics both programs compute, stated once over the extended reals with no program in sight.
  From a 1024 x 50 x 5 array M the feature of row i in kernel k is
      feat M i k = sum over all 1024 rows j of exp( - sum over d < 5 of |M[i,k,d] - M[j,k,d]| ),
  the absolute value written max a (-a) as the extended reals have it.
-/
import Idealize.ShloMosaic.PureOps.Ideal
import Idealize.ShloMosaic.PureOps.Ideal.Laws
import Idealize.ShloMosaic.Lib.ValueIdx

noncomputable section

namespace Cert.Spec

open Idealize.ShloMosaic

/-- The L1 distance between rows `i` and `j` of `M` in kernel `k`: five absolute differences, summed. -/
def l1 (M : (⟨3, ![1024, 50, 5]⟩ : Shape).Idx → EReal) (i j : Fin 1024) (k : Fin 50) : EReal :=
  ∑ d : Fin 5, max (M (ValueIdx.ix3 i k d) - M (ValueIdx.ix3 j k d)) (-(M (ValueIdx.ix3 i k d) - M (ValueIdx.ix3 j k d)))

/-- The minibatch feature of row `i` in kernel `k`. -/
def feat (M : (⟨3, ![1024, 50, 5]⟩ : Shape).Idx → EReal) (i : Fin 1024) (k : Fin 50) : EReal :=
  ∑ j : Fin 1024, Ideal.exp (-(l1 M i j k))

/-- The part of the feature's sum a block of 256 rows contributes: rows `256 b` to `256 b + 255`. -/
def featTile (M : (⟨3, ![1024, 50, 5]⟩ : Shape).Idx → EReal) (i : Fin 1024) (k : Fin 50) (b : Fin 4) : EReal :=
  ∑ j : Fin 256, Ideal.exp (-(l1 M i ⟨256 * b.val + j.val, by have := b.isLt; have := j.isLt; omega⟩ k))

/-- The sum over all rows is the sum of the four blocks' parts, taken in order from zero. -/
theorem feat_eq_tiles (M : (⟨3, ![1024, 50, 5]⟩ : Shape).Idx → EReal) (i : Fin 1024) (k : Fin 50) :
    feat M i k = (((0 + featTile M i k 0) + featTile M i k 1) + featTile M i k 2) + featTile M i k 3 := by
  -- Any function on the 1024 rows sums, block of 256 rows by block, to its four block sums: 1024 = 256 + 256 + 256 + 256
  -- splits the index type three times, and each piece's index is 256 b + j.
  have key : ∀ f : Fin 1024 → EReal, ∑ j : Fin 1024, f j =
      (((0 + ∑ j : Fin 256, f ⟨256 * (0 : Fin 4).val + j.val, by have := j.isLt; have : (0 : Fin 4).val = 0 := rfl; omega⟩)
        + ∑ j : Fin 256, f ⟨256 * (1 : Fin 4).val + j.val, by have := j.isLt; have : (1 : Fin 4).val = 1 := rfl; omega⟩)
        + ∑ j : Fin 256, f ⟨256 * (2 : Fin 4).val + j.val, by have := j.isLt; have : (2 : Fin 4).val = 2 := rfl; omega⟩)
        + ∑ j : Fin 256, f ⟨256 * (3 : Fin 4).val + j.val, by have := j.isLt; have : (3 : Fin 4).val = 3 := rfl; omega⟩ := by
    intro f
    rw [zero_add]
    have h := Fin.sum_univ_add (a := 256 + 256 + 256) (b := 256) (M := EReal) f
    have h1 := Fin.sum_univ_add (a := 256 + 256) (b := 256) (fun j : Fin (256 + 256 + 256) => f (Fin.castAdd 256 j))
    have h2 := Fin.sum_univ_add (a := 256) (b := 256) (fun j : Fin (256 + 256) => f (Fin.castAdd 256 (Fin.castAdd 256 j)))
    refine h.trans ?_
    rw [h1, h2]
    refine congrArg₂ (· + ·) (congrArg₂ (· + ·) (congrArg₂ (· + ·) ?_ ?_) ?_) ?_ <;>
      exact Finset.sum_congr rfl fun j _ => congrArg f (Fin.ext (by
        have := j.isLt
        have e0 : (0 : Fin 4).val = 0 := rfl
        have e1 : (1 : Fin 4).val = 1 := rfl
        have e2 : (2 : Fin 4).val = 2 := rfl
        have e3 : (3 : Fin 4).val = 3 := rfl
        simp only [Fin.coe_castAdd, Fin.coe_natAdd]
        omega))
  exact key fun j => Ideal.exp (-(l1 M i j k))

end Cert.Spec

end
-- ==== Proof.K1Value.lean ====
/-
  What the second kernel region leaves in its output array, over the extended reals: entry (i, k) is the feature
  `feat M i k` of the array M the two input windows read — the accumulator after the four column tiles of a row tile is
  the four blocks' parts added in order from zero, and the row tiles' output blocks tile the 1024 rows.
-/
import proofs.«105623_j74646531604915_1_alg».proof.Proof.R1Dat
import proofs.«105623_j74646531604915_1_alg».proof.Proof.StepValue
import proofs.«105623_j74646531604915_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe ValueIdx
open Idealize.ShloMosaic.Pipeline (Dat)

variable (V : (c : Dev nD) → (b : Ref sig .tc) → Buf (Elt Ideal) ((c : Thread nD τ).loc b))

/-! ## The blocks the two input windows read -/

/-- The printed index maps over the grid: the row tile's block index is `t / 4`, the column tile's `t % 4`, the
    output block's `t / 4`; every other axis has the one block 0. -/
theorem idx_facts1 : ∀ t : Fin cfg1.N,
    win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0 :=
  (by decide +kernel : ∀ t : Fin grid1.N, _)

/-- The array both input windows read, at its literal type. -/
abbrev Marr (c : Dev nD) : (⟨S1024x50x5, .f32⟩ : BufTy).Contents (Elt Ideal) := V c main_v1
/-- The row tile's block at point `t`. -/
abbrev xiblk (c : Dev nD) (t : Fin cfg1.N) : Vec Ideal S256x50x5 .f32 := iblk1 V c 0 t
/-- The column tile's block at point `t`. -/
abbrev xjblk (c : Dev nD) (t : Fin cfg1.N) : Vec Ideal S256x50x5 .f32 := iblk1 V c 1 t

/-- Entry (r, k, d) of the row tile's block at point `t` is entry (256 (t / 4) + r, k, d) of the array. -/
theorem xiblk_apply (c : Dev nD) (t : Fin cfg1.N) (r : Fin 256) (k : Fin 50) (d : Fin 5) (i : Fin 1024)
    (hi : i.val = 256 * (t.val / 4) + r.val) :
    xiblk V c t (ix3 r k d) = Marr V c (ix3 i k d) := by
  obtain ⟨e0, e1, e2, -, -, -, -, -⟩ := idx_facts1 t
  show V c main_v1 (((cfg1.win 0).blk t).view.emb (ix3 r k d)) = V c main_v1 (ix3 i k d)
  refine congrArg (V c main_v1) ?_
  funext a; apply Fin.ext
  match a with
  | ⟨0, _⟩ => show win1_0.index t (0 : Fin 3) * 256 + 1 * r.val = i.val; omega
  | ⟨1, _⟩ => show win1_0.index t (1 : Fin 3) * 50 + 1 * k.val = k.val; omega
  | ⟨2, _⟩ => show win1_0.index t (2 : Fin 3) * 5 + 1 * d.val = d.val; omega

/-- Entry (j, k, d) of the column tile's block at point `t` is entry (256 (t % 4) + j, k, d) of the array. -/
theorem xjblk_apply (c : Dev nD) (t : Fin cfg1.N) (j : Fin 256) (k : Fin 50) (d : Fin 5) (i : Fin 1024)
    (hi : i.val = 256 * (t.val % 4) + j.val) :
    xjblk V c t (ix3 j k d) = Marr V c (ix3 i k d) := by
  obtain ⟨-, -, -, e0, e1, e2, -, -⟩ := idx_facts1 t
  show V c main_v1 (((cfg1.win 1).blk t).view.emb (ix3 j k d)) = V c main_v1 (ix3 i k d)
  refine congrArg (V c main_v1) ?_
  funext a; apply Fin.ext
  match a with
  | ⟨0, _⟩ => show win1_1.index t (0 : Fin 3) * 256 + 1 * j.val = i.val; omega
  | ⟨1, _⟩ => show win1_1.index t (1 : Fin 3) * 50 + 1 * k.val = k.val; omega
  | ⟨2, _⟩ => show win1_1.index t (2 : Fin 3) * 5 + 1 * d.val = d.val; omega

/-! ## One point's terms are one tile's part of the feature -/

/-- What point `t` adds at entry (r, k): the part of the feature of row 256 (t / 4) + r that the rows of column tile
    `t % 4` contribute. -/
theorem tile_eq (c : Dev nD) (t : Fin cfg1.N) (r : Fin 256) (k : Fin 50) (i : Fin 1024) (b : Fin 4)
    (hi : i.val = 256 * (t.val / 4) + r.val) (hb : b.val = t.val % 4) :
    (∑ j : Fin 256, Ideal.exp (-(∑ d : Fin 5,
        max (xiblk V c t (ix3 r k d) - xjblk V c t (ix3 j k d)) (-(xiblk V c t (ix3 r k d) - xjblk V c t (ix3 j k d))))))
      = Cert.Spec.featTile (Marr V c) i k b := by
  unfold Cert.Spec.featTile Cert.Spec.l1
  refine Finset.sum_congr rfl fun j _ => congrArg (fun x => Ideal.exp (-x)) (Finset.sum_congr rfl fun d _ => ?_)
  rw [xiblk_apply V c t r k d i hi, xjblk_apply V c t j k d ⟨256 * b.val + j.val, by have := b.isLt; have := j.isLt; omega⟩ (by show 256 * b.val + j.val = _; rw [hb])]

/-! ## The accumulator after each point -/

/-- The parts of the first `b + 1` column tiles added in order from zero. -/
def partSum (M : (⟨3, ![1024, 50, 5]⟩ : Shape).Idx → EReal) (i : Fin 1024) (k : Fin 50) : ℕ → EReal
  | 0 => 0 + Cert.Spec.featTile M i k 0
  | b + 1 => partSum M i k b + Cert.Spec.featTile M i k ⟨(b + 1) % 4, Nat.mod_lt _ (by decide)⟩

/-- The accumulator at a position does not depend on how the position is written. -/
theorem accAt_congr (c : Dev nD) {n n' : ℕ} (e : n = n') (h : n < cfg1.N) (h' : n' < cfg1.N) :
    accAt V c n h = accAt V c n' h' := by subst e; rfl

/-- After point 4 a + b the accumulator's entry (r, k) is the first `b + 1` parts of the feature of row 256 a + r. -/
theorem accAt_apply (c : Dev nD) (a : ℕ) (r : Fin 256) (k : Fin 50) (i : Fin 1024) (hi : i.val = 256 * a + r.val) :
    ∀ (b : ℕ) (hb : b < 4) (hn : 4 * a + b < cfg1.N),
      (accAt V c (4 * a + b) hn : Vec Ideal S256x50 .f32) (ix2 r k) = partSum (Marr V c) i k b
  | 0, hb, hn => by
    have h0 : (⟨4 * a + 0, hn⟩ : Fin cfg1.N).val % 4 = 0 := by show (4 * a + 0) % 4 = 0; omega
    refine (congrFun (accAt_first V c ⟨4 * a + 0, hn⟩ h0) (ix2 r k)).trans ?_
    refine (step1_apply (xiblk V c ⟨4 * a + 0, hn⟩) (xjblk V c ⟨4 * a + 0, hn⟩) zero1 r k).trans ?_
    rw [zero1_apply, tile_eq V c ⟨4 * a + 0, hn⟩ r k i 0 (by show i.val = 256 * ((4 * a + 0) / 4) + r.val; omega) (by show (0 : Fin 4).val = (4 * a + 0) % 4; simp)]
    rfl
  | b + 1, hb, hn => by
    have h0 : ¬(⟨4 * a + (b + 1), hn⟩ : Fin cfg1.N).val % 4 = 0 := by show ¬(4 * a + (b + 1)) % 4 = 0; omega
    have hn' : 4 * a + b < cfg1.N := by omega
    refine (congrFun (accAt_later V c ⟨4 * a + (b + 1), hn⟩ h0) (ix2 r k)).trans ?_
    rw [accAt_congr V c (show (⟨4 * a + (b + 1), hn⟩ : Fin cfg1.N).val - 1 = 4 * a + b from by show 4 * a + (b + 1) - 1 = 4 * a + b; omega) _ hn']
    refine (step1_apply (xiblk V c ⟨4 * a + (b + 1), hn⟩) (xjblk V c ⟨4 * a + (b + 1), hn⟩) (accAt V c (4 * a + b) hn') r k).trans ?_
    rw [accAt_apply c a r k i hi b (by omega) hn',
      tile_eq V c ⟨4 * a + (b + 1), hn⟩ r k i ⟨(b + 1) % 4, Nat.mod_lt _ (by decide)⟩
        (by show i.val = 256 * ((4 * a + (b + 1)) / 4) + r.val; omega) (by show (b + 1) % 4 = (4 * a + (b + 1)) % 4; omega)]
    rfl

/-! ## From the output blocks to the array -/

/-- The features as an array. -/
abbrev Garr (c : Dev nD) : (⟨S1024x50, .f32⟩ : BufTy).Contents (Elt Ideal) :=
  fun y => Cert.Spec.feat (V c main_v1) (y 0) (y 1)

/-- What a last column tile's point writes back is its block of the feature array: the accumulator after the four
    column tiles of the row tile holds the four parts added in order from zero, which is the whole sum. -/
theorem flushed1_2_eq (c : Dev nD) (t : Fin cfg1.N) (hf : (cfg1.win 2).flush t = true) :
    (dat1 V c).flushed 2 t = ((cfg1.win 2).blk t).view.read (Elt Ideal) (Garr V c) := by
  have h3 : t.val % 4 = 3 := (flush1_2 t).mp hf
  have hN : cfg1.N = 16 := N_1
  have ht : t.val < 16 := hN ▸ t.isLt
  obtain ⟨-, -, -, -, -, -, e0, e1⟩ := idx_facts1 t
  show (cfg1.win 2).cut (grid1.coords t) ((dat1 V c).after 2 t) = _
  rw [after1_2]
  funext y
  obtain ⟨r, k, rfl⟩ : ∃ (r : Fin 256) (k : Fin 50), y = ix2 r k := ⟨y 0, y 1, eq_ix2 y⟩
  obtain ⟨i, hi⟩ : ∃ i : Fin 1024, i.val = 256 * (t.val / 4) + r.val :=
    ⟨⟨256 * (t.val / 4) + r.val, by have := r.isLt; omega⟩, rfl⟩
  have hemb : ((cfg1.win 2).blk t).view.emb (ix2 r k) = ix2 i k := by
    funext a; apply Fin.ext
    match a with
    | ⟨0, _⟩ => show win1_2.index t (0 : Fin 2) * 256 + 1 * r.val = i.val; omega
    | ⟨1, _⟩ => show win1_2.index t (1 : Fin 2) * 50 + 1 * k.val = k.val; omega
  show (accAt V c t.val t.isLt : Vec Ideal S256x50 .f32) (ix2 r k) = Garr V c (((cfg1.win 2).blk t).view.emb (ix2 r k))
  rw [hemb]
  show _ = Cert.Spec.feat (V c main_v1) i k
  rw [accAt_congr V c (show t.val = 4 * (t.val / 4) + 3 by omega) t.isLt (by omega),
    accAt_apply V c (t.val / 4) r k i hi 3 (by decide) _, Cert.Spec.feat_eq_tiles]
  rfl

/-- An index of the output array is in point `t`'s block iff each coordinate is in the block's range on its axis. -/
theorem mem_blk1_2 (t : Fin cfg1.N) (y : S1024x50.Idx) :
    y ∈ ((cfg1.win 2).blk t).view.set ↔ ∀ a : Fin 2, win1_2.index t a * S256x50.size a ≤ (y a).val ∧ (y a).val < win1_2.index t a * S256x50.size a + S256x50.size a := by
  show y ∈ ((View.whole main_v2).slice (win1_2.rect t)).set ↔ _
  rw [View.set_slice_whole, Rect.mem_set_unit]
  exact Iff.rfl

/-- Row `i` of the output array is written back by the last column tile's point of row tile `i / 256`. -/
theorem cover1_2 (y : S1024x50.Idx) :
    ∃ t : Fin cfg1.N, (cfg1.win 2).flush t = true ∧ y ∈ ((cfg1.win 2).blk t).view.set := by
  have h0 : (y 0).val < 1024 := (y 0).isLt
  have h1 : (y 1).val < 50 := (y 1).isLt
  have hN : cfg1.N = 16 := N_1
  obtain ⟨t, ht⟩ : ∃ t : Fin cfg1.N, t.val = 4 * ((y 0).val / 256) + 3 := ⟨⟨4 * ((y 0).val / 256) + 3, by omega⟩, rfl⟩
  obtain ⟨-, -, -, -, -, -, e0, e1⟩ := idx_facts1 t
  refine ⟨t, (flush1_2 t).mpr (by omega), ?_⟩
  rw [mem_blk1_2]
  intro a
  match a with
  | ⟨0, _⟩ => show win1_2.index t (0 : Fin 2) * 256 ≤ (y 0).val ∧ (y 0).val < win1_2.index t (0 : Fin 2) * 256 + 256; omega
  | ⟨1, _⟩ => show win1_2.index t (1 : Fin 2) * 50 ≤ (y 1).val ∧ (y 1).val < win1_2.index t (1 : Fin 2) * 50 + 50; omega

/-- The feature array after the region, entry by entry. -/
theorem final1 (c : Dev nD) (i : Fin 1024) (k : Fin 50) :
    (dat1 (F := Ideal) V c).arrAt 2 cfg1.N (ix2 i k) = Cert.Spec.feat (V c main_v1) i k := by
  exact congrFun ((dat1 (F := Ideal) V c).arrAt_eq_of_cover 2 (Garr V c) (flushed1_2_eq V c) cover1_2) (ix2 i k)

end Cert.KernelIdeal.Hand

end
-- ==== Proof.RefSide.lean ====
/-
  The reference side: the host program's feature array, read one operation at a time over the extended reals, is the
  feature `feat` of its own reshaped product.
-/
import proofs.«105623_j74646531604915_1_alg».proof.Proof.Gen.ReferenceIdeal.Run
import proofs.«105623_j74646531604915_1_alg».proof.Proof.Gen.ReferenceIdeal.Read
import proofs.«105623_j74646531604915_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefSide

open Cert.ReferenceIdeal Cert.ReferenceIdeal.Gen Cert.ReferenceIdeal.Read Idealize.ShloMosaic ValueIdx

/-- Entry (i, k) of the reference's second sum is the feature of its reshaped product. -/
theorem ref_feat (x0 : (⟨S1024x512, .f32⟩ : BufTy).Contents (Elt Ideal)) (x1 : (⟨S512x250, .f32⟩ : BufTy).Contents (Elt Ideal))
    (i : Fin 1024) (k : Fin 50) :
    val_main_v12 (F := Ideal) x0 x1 (ix2 i k) = Cert.Spec.feat (val_main_v1 (F := Ideal) x0 x1) i k := by
  -- the outer sum: initial value zero, then one term per row j
  rw [val_main_v12_apply, val_main_cst_0_apply, Ideal.ofBits_def, Ideal.ofBits_zero_f32, zero_add]
  unfold Cert.Spec.feat
  refine Finset.sum_congr rfl fun j _ => ?_
  -- the term of row j: the exponential of minus the inner sum over the five coordinates
  rw [val_main_v11_apply, val_main_v10_apply, val_main_v9_apply, val_main_cst_apply, Ideal.ofBits_def,
    Ideal.ofBits_zero_f32, zero_add, Ideal.hostUnary_exp_def, Ideal.hostNegf_def, Ideal.negf_def]
  unfold Cert.Spec.l1
  refine congrArg (fun t => Ideal.exp (-t)) (Finset.sum_congr rfl fun d _ => ?_)
  -- one coordinate: both broadcasts read the reshaped product, at (i, k, d) and at (j, k, d)
  have ei : idx_main_v2 (idx_main_v5 (idx_main_v9 (idx_main_v12 (ix2 i k) j) d)) = ix3 i k d :=
    funext fun a => Fin.ext (by match a with | ⟨0, _⟩ => rfl | ⟨1, _⟩ => rfl | ⟨2, _⟩ => rfl)
  have ej : idx_main_v3 (idx_main_v4 (idx_main_v6 (idx_main_v9 (idx_main_v12 (ix2 i k) j) d))) = ix3 j k d :=
    funext fun a => Fin.ext (by match a with | ⟨0, _⟩ => rfl | ⟨1, _⟩ => rfl | ⟨2, _⟩ => rfl)
  rw [val_main_v8_apply, val_main_v7_apply, val_main_v5_apply, val_main_v2_apply, val_main_v6_apply, val_main_v4_apply,
    val_main_v3_apply, ei, ej, Ideal.hostAbsf_def, Ideal.absf_def, Ideal.subf_def]

end Cert.ReferenceIdeal.RefSide

end
-- ==== Proof.KernelValue.lean ====
/-
  The kernel program's result is the reference's, over the extended reals.  Both are the first argument beside a
  1024 x 50 feature array, joined along the columns.  The kernel's product array is the reference's dot product entry
  by entry (a sum over the 512 contracted positions on both sides), so the reshaped arrays agree; and each side's
  feature array is the feature `feat` of its reshaped product.
-/
import proofs.«105623_j74646531604915_1_alg».proof.Proof.RunValue
import proofs.«105623_j74646531604915_1_alg».proof.Proof.K0Value
import proofs.«105623_j74646531604915_1_alg».proof.Proof.K1Value
import proofs.«105623_j74646531604915_1_alg».proof.Proof.RefSide
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe ValueIdx
open Idealize.SL.Sem

variable (m : (ℓ : Loc nD τ sig) → Buf (Elt Ideal) ℓ) (ρ : Dev nD → PrngReg)

/-- The kernel's product array is the reference's dot product: both are, entry by entry, the sum over the 512
    contracted positions of left[i, f] * right[f, n] of the two arguments. -/
theorem prod_eq (c : Dev nD) :
    prodArr (V0r m ρ) c
      = Cert.ReferenceIdeal.Read.val_main_v0 (F := Ideal) (m ((c : Thread nD τ).loc main_arg0)) (m ((c : Thread nD τ).loc main_arg1)) := by
  funext j
  obtain ⟨i, n, rfl⟩ : ∃ (i : Fin 1024) (n : Fin 250), j = ix2 i n := ⟨j 0, j 1, eq_ix2 j⟩
  rw [Cert.ReferenceIdeal.Read.val_main_v0_apply]
  refine (final0 (V0r m ρ) c i n).trans ?_
  have el : ∀ f : Fin 512, Cert.ReferenceIdeal.Read.lidx_main_v0 (ix2 i n) f = ix2 i f := fun f =>
    funext fun a => Fin.ext (by match a with | ⟨0, _⟩ => rfl | ⟨1, _⟩ => rfl)
  have er : ∀ f : Fin 512, Cert.ReferenceIdeal.Read.ridx_main_v0 (ix2 i n) f = ix2 f n := fun f =>
    funext fun a => Fin.ext (by match a with | ⟨0, _⟩ => rfl | ⟨1, _⟩ => rfl)
  refine Finset.sum_congr rfl fun f _ => ?_
  rw [el f, er f]

/-- So the array the second region reads is the reference's reshaped product: the same reshape of equal arrays. -/
theorem reshaped_eq (c : Dev nD) :
    V2r m ρ c main_v1
      = Cert.ReferenceIdeal.Read.val_main_v1 (F := Ideal) (m ((c : Thread nD τ).loc main_arg0)) (m ((c : Thread nD τ).loc main_arg1)) := by
  rw [V2r_main_v1]
  unfold Cert.ReferenceIdeal.Read.val_main_v1
  exact congrArg (fun z : (⟨S1024x250, .f32⟩ : BufTy).Contents (Elt Ideal) => shapeCast S1024x50x5 z shapeCasts_S1024x250_S1024x50x5) (prod_eq m ρ c)

/-- The feature array the second region leaves is the reference's: each is the feature of its reshaped product. -/
theorem feat_eq (c : Dev nD) :
    (dat1 (F := Ideal) (V2r m ρ) c).arrAt 2 cfg1.N
      = Cert.ReferenceIdeal.Read.val_main_v12 (F := Ideal) (m ((c : Thread nD τ).loc main_arg0)) (m ((c : Thread nD τ).loc main_arg1)) := by
  funext y
  obtain ⟨i, k, rfl⟩ : ∃ (i : Fin 1024) (k : Fin 50), y = ix2 i k := ⟨y 0, y 1, eq_ix2 y⟩
  rw [final1, Cert.ReferenceIdeal.RefSide.ref_feat, reshaped_eq]

/-- The result buffer's contents at the last boundary are the reference's result term of the two arguments. -/
theorem result_eq (c : Dev nD) :
    W4 (F := Ideal) m ρ c (Proc.devRef .tc main_v3)
      = Cert.ReferenceIdeal.Read.val_main_v13 (F := Ideal) (m ((c : Thread nD τ).loc main_arg0)) (m ((c : Thread nD τ).loc main_arg1)) := by
  rw [W4_main_v3]
  unfold Cert.ReferenceIdeal.Read.val_main_v13
  exact congrArg (fun z : (⟨S1024x50, .f32⟩ : BufTy).Contents (Elt Ideal) =>
    concatenate S1024x562 1 [⟨S1024x512, m ((c : Thread nD τ).loc main_arg0)⟩, ⟨S1024x50, z⟩]
      concatenates_S1024x512_S1024x50_S1024x562_d1) (feat_eq m ρ c)

end Cert.KernelIdeal.Hand

end
-- ==== Proof.lean ====
/-
  The certificate of the minibatch-discrimination kernel against its jnp reference.

  Both programs compute, from x : [1024, 512] and T : [512, 250], the array M = reshape (x · T) : [1024, 50, 5] and the
  features  feat[i, k] = sum over the 1024 rows j of exp( - sum over d < 5 of |M[i,k,d] - M[j,k,d]| ),  and return x
  beside feat, joined along the columns.  The kernel program does it in two pipelined kernel regions — a row-blocked
  matrix product into a zero accumulator, then, on a 4 x 4 grid of 256-row tiles, a scratch accumulator zeroed at a
  row tile's first column tile, added to at every column tile and copied out at the last — with a host reshape between
  them and a host concatenation after; the reference does it as one chain of host operations.

  Over the extended reals the two agree with no appeal to finiteness: the product is the same sum over the 512
  contracted positions on both sides; the kernel's 0 - s is -s, its ((((0 + a0) + a1) + a2) + a3) + a4 is the sum over
  d, and its four 256-row partial sums added in order from zero are the sum over all 1024 rows (addition of extended
  reals is commutative and associative with 0 neutral).  The frames (each program runs to the end from any memory,
  faults nowhere and leaves its arguments unchanged) are proved for the two kernel programs by one run over the
  pipeline rule, generic in the float instance, and for the reference by its run with the result dropped.  The ideal
  pass rewrote nothing, so the idealization's ledger is empty.
-/
import proofs.«105623_j74646531604915_1_alg».proof.Defs
import proofs.«105623_j74646531604915_1_alg».proof.Proof.Gen.Kernel
import proofs.«105623_j74646531604915_1_alg».proof.Proof.Gen.KernelIdeal
import proofs.«105623_j74646531604915_1_alg».proof.Proof.Gen.ReferenceIdeal
import proofs.«105623_j74646531604915_1_alg».proof.Proof.Gen.Pre_finite_inputs
import proofs.«105623_j74646531604915_1_alg».proof.Proof.Gen.ReferenceIdeal.Run
import proofs.«105623_j74646531604915_1_alg».proof.Proof.Gen.ReferenceIdeal.Read
import proofs.«105623_j74646531604915_1_alg».proof.Proof.Bits.RunValue
import proofs.«105623_j74646531604915_1_alg».proof.Proof.KernelValue

noncomputable section

namespace Cert.Proof

open Idealize.ShloMosaic Idealize.ShloMosaic.TcCoe Idealize.SL.Sem

/-- The word-level kernel program runs to the end and leaves its arguments unchanged. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs run, and end with the same result: the kernel
    program's result buffer holds the last boundary's contents, which are the reference's result term. -/
theorem algebraic : Cert.algebraic_KernelIdeal_ReferenceIdeal := by
  intro m ρ m' ρ' _ hagree
  refine ⟨fun c => Cert.KernelIdeal.Hand.W4 (F := Ideal) m ρ c (Proc.devRef .tc Cert.KernelIdeal.main_v3),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
